-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S16384 : Shape := ⟨1, ![16384]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S16384 : S_.BroadcastsInDim S16384 (![] : Fin 0 → Fin S16384.rank)
  reducesTo_S16384_S_d0 : S16384.ReducesTo [0] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg5 : IVec S16384 32) (main_arg8 : IVec S16384 32) (main_v30 : IVec S_ 1) (main_v32 : IVec S16384 1) (main_c_12 : IVec S_ 32) : IVec S_ 1 :=
  let main_v33 : IVec S16384 32 := broadcastInDim S16384 ![] bcast_S_S16384 main_c_12
  let main_v34 : IVec S16384 1 := cmpi .slt main_arg5 main_v33
  let main_v35 : IVec S16384 1 := andi main_v32 main_v34
  let main_c_13 : IVec S_ 1 := constantI S_ 1 1#1
  let main_v36 : IVec S_ 1 := (fun x v => Host.reduce IntOp.andi x v reducesTo_S16384_S_d0 h_S_) main_v35 main_c_13
  let main_v37 : IVec S_ 1 := andi main_v30 main_v36
  let main_c_14 : IVec S_ 32 := constantI S_ 32 0#32
  let main_v38 : IVec S16384 32 := broadcastInDim S16384 ![] bcast_S_S16384 main_c_14
  let main_v39 : IVec S16384 1 := cmpi .sge main_arg8 main_v38
  let main_c_15 : IVec S_ 32 := constantI S_ 32 2048#32
  let main_v40 : IVec S16384 32 := broadcastInDim S16384 ![] bcast_S_S16384 main_c_15
  let main_v41 : IVec S16384 1 := cmpi .slt main_arg8 main_v40
  let main_v42 : IVec S16384 1 := andi main_v39 main_v41
  let main_c_16 : IVec S_ 1 := constantI S_ 1 1#1
  let main_v43 : IVec S_ 1 := (fun x v => Host.reduce IntOp.andi x v reducesTo_S16384_S_d0 h_S_) main_v42 main_c_16
  let main_v44 : IVec S_ 1 := andi main_v37 main_v43
  main_v44

def fn_part1 {F : FTy → Type} [FloatOps F] (main_arg2 : IVec S16384 32) (main_arg5 : IVec S16384 32) (main_arg8 : IVec S16384 32) (main_arg10 : FVec F S2048 .f32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_v19 : FVec F S2048 .f32 := Host.absf main_arg10
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_c_8 : IVec S_ 32 := constantI S_ 32 0#32
  let main_v24 : IVec S16384 32 := broadcastInDim S16384 ![] bcast_S_S16384 main_c_8
  let main_v25 : IVec S16384 1 := cmpi .sge main_arg2 main_v24
  let main_c_9 : IVec S_ 32 := constantI S_ 32 2048#32
  let main_v26 : IVec S16384 32 := broadcastInDim S16384 ![] bcast_S_S16384 main_c_9
  let main_v27 : IVec S16384 1 := cmpi .slt main_arg2 main_v26
  let main_v28 : IVec S16384 1 := andi main_v25 main_v27
  let main_c_10 : IVec S_ 1 := constantI S_ 1 1#1
  let main_v29 : IVec S_ 1 := (fun x v => Host.reduce IntOp.andi x v reducesTo_S16384_S_d0 h_S_) main_v28 main_c_10
  let main_v30 : IVec S_ 1 := andi main_v23 main_v29
  let main_c_11 : IVec S_ 32 := constantI S_ 32 0#32
  let main_v31 : IVec S16384 32 := broadcastInDim S16384 ![] bcast_S_S16384 main_c_11
  let main_v32 : IVec S16384 1 := cmpi .sge main_arg5 main_v31
  let main_c_12 : IVec S_ 32 := constantI S_ 32 2048#32
  fn_part2 (F := F) main_arg5 main_arg8 main_v30 main_v32 main_c_12

def fn {F : FTy → Type} [FloatOps F] (main_arg0 : FVec F S4096x2048 .f32) (main_arg1 : IVec S16384 32) (main_arg2 : IVec S16384 32) (main_arg3 : FVec F S16384 .f32) (main_arg4 : IVec S16384 32) (main_arg5 : IVec S16384 32) (main_arg6 : FVec F S16384 .f32) (main_arg7 : IVec S16384 32) (main_arg8 : IVec S16384 32) (main_arg9 : FVec F S16384 .f32) (main_arg10 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S16384 .f32 := Host.absf main_arg3
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg6
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384 .f32 := Host.absf main_arg9
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg2 main_arg5 main_arg8 main_arg10 main_v13 main_v16
-- ==== Kernel.lean ====
abbrev S4096x2048 : Shape := ⟨2, ![4096, 2048]⟩
abbrev S16384 : Shape := ⟨1, ![16384]⟩
abbrev S2048 : Shape := ⟨1, ![2048]⟩
abbrev S_ : Shape := ⟨0, ![]⟩
abbrev S2048x2048 : Shape := ⟨2, ![2048, 2048]⟩
abbrev S16384x1 : Shape := ⟨2, ![16384, 1]⟩
abbrev S16384x2 : Shape := ⟨2, ![16384, 2]⟩
abbrev S512x512 : Shape := ⟨2, ![512, 512]⟩
abbrev S1x2048 : Shape := ⟨2, ![1, 2048]⟩
abbrev S512x2048 : Shape := ⟨2, ![512, 2048]⟩

abbrev nBuf : Space → Nat
  | .hbm => 78
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S16384, .i32⟩
  | .hbm, ⟨2, _⟩ => ⟨S16384, .i32⟩
  | .hbm, ⟨3, _⟩ => ⟨S16384, .f32⟩
  | .hbm, ⟨4, _⟩ => ⟨S16384, .i32⟩
  | .hbm, ⟨5, _⟩ => ⟨S16384, .i32⟩
  | .hbm, ⟨6, _⟩ => ⟨S16384, .f32⟩
  | .hbm, ⟨7, _⟩ => ⟨S16384, .i32⟩
  | .hbm, ⟨8, _⟩ => ⟨S16384, .i32⟩
  | .hbm, ⟨9, _⟩ => ⟨S16384, .f32⟩
  | .hbm, ⟨10, _⟩ => ⟨S2048, .f32⟩
  | .hbm, ⟨11, _⟩ => ⟨S_, .f32⟩
  | .hbm, ⟨12, _⟩ => ⟨S2048x2048, .f32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S16384x1, .i32⟩
  | .hbm, ⟨29, _⟩ => ⟨S16384x2, .i32⟩
  | .hbm, ⟨30, _⟩ => ⟨S2048x2048, .f32⟩
  | .hbm, ⟨31, _⟩ => ⟨S2048x2048, .bf16⟩
  | .hbm, ⟨32, _⟩ => ⟨S_, .f32⟩
  | .hbm, ⟨33, _⟩ => ⟨S2048x2048, .f32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S_, .i32⟩
  | .hbm, ⟨42, _⟩ => ⟨S16384, .i32⟩
  | .hbm, ⟨43, _⟩ => ⟨S16384, .i1⟩
  | .hbm, ⟨44, _⟩ => ⟨S_, .i32⟩
  | .hbm, ⟨45, _⟩ => ⟨S16384, .i32⟩
  | .hbm, ⟨46, _⟩ => ⟨S16384, .i32⟩
  | .hbm, ⟨47, _⟩ => ⟨S16384, .i32⟩
  | .hbm, ⟨48, _⟩ => ⟨S16384x1, .i32⟩
  | .hbm, ⟨49, _⟩ => ⟨S16384x1, .i32⟩
  | .hbm, ⟨50, _⟩ => ⟨S16384x2, .i32⟩
  | .hbm, ⟨51, _⟩ => ⟨S2048x2048, .f32⟩
  | .hbm, ⟨52, _⟩ => ⟨S2048x2048, .bf16⟩
  | .hbm, ⟨53, _⟩ => ⟨S_, .f32⟩
  | .hbm, ⟨54, _⟩ => ⟨S2048x2048, .f32⟩
  | .hbm, ⟨55, _⟩ => ⟨S_, .i32⟩
  | .hbm, ⟨56, _⟩ => ⟨S16384, .i32⟩
  | .hbm, ⟨57, _⟩ => ⟨S16384, .i1⟩
  | .hbm, ⟨58, _⟩ => ⟨S_, .i32⟩
  | .hbm, ⟨59, _⟩ => ⟨S16384, .i32⟩
  | .hbm, ⟨60, _⟩ => ⟨S16384, .i32⟩
  | .hbm, ⟨61, _⟩ => ⟨S16384, .i32⟩
  | .hbm, ⟨62, _⟩ => ⟨S_, .i32⟩
  | .hbm, ⟨63, _⟩ => ⟨S16384, .i32⟩
  | .hbm, ⟨64, _⟩ => ⟨S16384, .i1⟩
  | .hbm, ⟨65, _⟩ => ⟨S_, .i32⟩
  | .hbm, ⟨66, _⟩ => ⟨S16384, .i32⟩
  | .hbm, ⟨67, _⟩ => ⟨S16384, .i32⟩
  | .hbm, ⟨68, _⟩ => ⟨S16384, .i32⟩
  | .hbm, ⟨69, _⟩ => ⟨S16384x1, .i32⟩
  | .hbm, ⟨70, _⟩ => ⟨S16384x1, .i32⟩
  | .hbm, ⟨71, _⟩ => ⟨S16384x2, .i32⟩
  | .hbm, ⟨72, _⟩ => ⟨S2048x2048, .f32⟩
  | .hbm, ⟨73, _⟩ => ⟨S2048x2048, .bf16⟩
  | .hbm, ⟨74, _⟩ => ⟨S2048x2048, .bf16⟩
  | .hbm, ⟨75, _⟩ => ⟨S2048x2048, .bf16⟩
  | .hbm, ⟨76, _⟩ => ⟨S1x2048, .f32⟩
  | .hbm, ⟨77, _⟩ => ⟨S4096x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .f32⟩
  | .local _ .vmem, ⟨14, _⟩ => ⟨S512x2048, .f32⟩
  | .local _ .vmem, ⟨15, _⟩ => ⟨S512x2048, .f32⟩
  | .local _ .vmem, ⟨16, _⟩ => ⟨S2048x2048, .bf16⟩
  | .local _ .vmem, ⟨17, _⟩ => ⟨S1x2048, .f32⟩
  | .local _ .vmem, ⟨18, _⟩ => ⟨S512x2048, .f32⟩
  | .local _ .vmem, ⟨19, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_c_10 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_11 : Ref sig .tc := ⟨.hbm, 62, rfl⟩
abbrev main_v38 : Ref sig .tc := ⟨.hbm, 63, rfl⟩
abbrev main_v39 : Ref sig .tc := ⟨.hbm, 64, rfl⟩
abbrev main_c_12 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S2048x2048 : S_.BroadcastsInDim S2048x2048 (![] : Fin 0 → Fin S2048x2048.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  scatter_S2048x2048_S16384x2_S16384_n_01_01_1_wf : ScatterDims.WF S2048x2048 S16384x2 S16384 [] [0, 1] [0, 1] 1
  dot_S512x512_S512x512_S512x512_1_0_0_1_n_n_wf : DotDims.WF S512x512 S512x512 S512x512 [1] [0] [0] [1] [] []
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x2048.size a
  hwx0_0 : ∀ i : grid0.Coords, EltTy.bits .bf16 = 32 ∨ (Rect.block (s := S2048x2048) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x2048.size a
  hwx0_1 : ∀ i : grid0.Coords, EltTy.bits .bf16 = 32 ∨ (Rect.block (s := S2048x2048) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .bf16 = 32 ∨ (Rect.block (s := S2048x2048) S512x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S2048x2048.size a
  hwx1_0 : ∀ i : grid1.Coords, EltTy.bits .bf16 = 32 ∨ (Rect.block (s := S2048x2048) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S2048x2048.size a
  hwx1_1 : ∀ i : grid1.Coords, EltTy.bits .bf16 = 32 ∨ (Rect.block (s := S2048x2048) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S2048x2048.size a
  hwx1_2 : ∀ i : grid1.Coords, EltTy.bits .bf16 = 32 ∨ (Rect.block (s := S2048x2048) S512x512.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .f32 = 32 ∨ (Rect.block (s := S4096x2048) S512x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S4096x2048.size a
  hwx2_3 : ∀ i : grid2.Coords, EltTy.bits .f32 = 32 ∨ (Rect.block (s := S4096x2048) S512x2048.size (cc2_transform_3 i) (hinb2_3 i)).WholeWords (EltTy.packing .f32)

variable [Facts₀]

def scatter_S2048x2048_S16384x2_S16384_n_01_01_1 : ScatterDims S2048x2048 S16384x2 S16384 where
  updateWindowDims := []
  insertedWindowDims := [0, 1]
  scatterDimsToOperandDims := [0, 1]
  indexVectorDim := 1
  wf := scatter_S2048x2048_S16384x2_S16384_n_01_01_1_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v15) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v48) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S512x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x2048 : Shape := ⟨2, ![4096, 2048]⟩
abbrev S16384 : Shape := ⟨1, ![16384]⟩
abbrev S2048 : Shape := ⟨1, ![2048]⟩
abbrev S_ : Shape := ⟨0, ![]⟩
abbrev S16384x1 : Shape := ⟨2, ![16384, 1]⟩
abbrev S4096x16384 : Shape := ⟨2, ![4096, 16384]⟩
abbrev S1x16384 : Shape := ⟨2, ![1, 16384]⟩
abbrev S1x2048 : Shape := ⟨2, ![1, 2048]⟩

abbrev nBuf : Space → Nat
  | .hbm => 83
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S16384, .i32⟩
  | .hbm, ⟨2, _⟩ => ⟨S16384, .i32⟩
  | .hbm, ⟨3, _⟩ => ⟨S16384, .f32⟩
  | .hbm, ⟨4, _⟩ => ⟨S16384, .i32⟩
  | .hbm, ⟨5, _⟩ => ⟨S16384, .i32⟩
  | .hbm, ⟨6, _⟩ => ⟨S16384, .f32⟩
  | .hbm, ⟨7, _⟩ => ⟨S16384, .i32⟩
  | .hbm, ⟨8, _⟩ => ⟨S16384, .i32⟩
  | .hbm, ⟨9, _⟩ => ⟨S16384, .f32⟩
  | .hbm, ⟨10, _⟩ => ⟨S2048, .f32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S4096x16384, .f32⟩
  | .hbm, ⟨20, _⟩ => ⟨S1x16384, .f32⟩
  | .hbm, ⟨21, _⟩ => ⟨S4096x16384, .f32⟩
  | .hbm, ⟨22, _⟩ => ⟨S4096x16384, .f32⟩
  | .hbm, ⟨23, _⟩ => ⟨S_, .f32⟩
  | .hbm, ⟨24, _⟩ => ⟨S4096x2048, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S4096x2048, .f32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S4096x16384, .f32⟩
  | .hbm, ⟨43, _⟩ => ⟨S1x16384, .f32⟩
  | .hbm, ⟨44, _⟩ => ⟨S4096x16384, .f32⟩
  | .hbm, ⟨45, _⟩ => ⟨S4096x16384, .f32⟩
  | .hbm, ⟨46, _⟩ => ⟨S_, .f32⟩
  | .hbm, ⟨47, _⟩ => ⟨S4096x2048, .f32⟩
  | .hbm, ⟨48, _⟩ => ⟨S_, .i32⟩
  | .hbm, ⟨49, _⟩ => ⟨S16384, .i32⟩
  | .hbm, ⟨50, _⟩ => ⟨S16384, .i1⟩
  | .hbm, ⟨51, _⟩ => ⟨S_, .i32⟩
  | .hbm, ⟨52, _⟩ => ⟨S16384, .i32⟩
  | .hbm, ⟨53, _⟩ => ⟨S16384, .i32⟩
  | .hbm, ⟨54, _⟩ => ⟨S16384, .i32⟩
  | .hbm, ⟨55, _⟩ => ⟨S16384x1, .i32⟩
  | .hbm, ⟨56, _⟩ => ⟨S4096x2048, .f32⟩
  | .hbm, ⟨57, _⟩ => ⟨S_, .i32⟩
  | .hbm, ⟨58, _⟩ => ⟨S16384, .i32⟩
  | .hbm, ⟨59, _⟩ => ⟨S16384, .i1⟩
  | .hbm, ⟨60, _⟩ => ⟨S_, .i32⟩
  | .hbm, ⟨61, _⟩ => ⟨S16384, .i32⟩
  | .hbm, ⟨62, _⟩ => ⟨S16384, .i32⟩
  | .hbm, ⟨63, _⟩ => ⟨S16384, .i32⟩
  | .hbm, ⟨64, _⟩ => ⟨S16384x1, .i32⟩
  | .hbm, ⟨65, _⟩ => ⟨S4096x16384, .f32⟩
  | .hbm, ⟨66, _⟩ => ⟨S1x16384, .f32⟩
  | .hbm, ⟨67, _⟩ => ⟨S4096x16384, .f32⟩
  | .hbm, ⟨68, _⟩ => ⟨S4096x16384, .f32⟩
  | .hbm, ⟨69, _⟩ => ⟨S_, .f32⟩
  | .hbm, ⟨70, _⟩ => ⟨S4096x2048, .f32⟩
  | .hbm, ⟨71, _⟩ => ⟨S_, .i32⟩
  | .hbm, ⟨72, _⟩ => ⟨S16384, .i32⟩
  | .hbm, ⟨73, _⟩ => ⟨S16384, .i1⟩
  | .hbm, ⟨74, _⟩ => ⟨S_, .i32⟩
  | .hbm, ⟨75, _⟩ => ⟨S16384, .i32⟩
  | .hbm, ⟨76, _⟩ => ⟨S16384, .i32⟩
  | .hbm, ⟨77, _⟩ => ⟨S16384, .i32⟩
  | .hbm, ⟨78, _⟩ => ⟨S16384x1, .i32⟩
  | .hbm, ⟨79, _⟩ => ⟨S4096x2048, .f32⟩
  | .hbm, ⟨80, _⟩ => ⟨S1x2048, .f32⟩
  | .hbm, ⟨81, _⟩ => ⟨S4096x2048, .f32⟩
  | .hbm, ⟨82, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_c_11 : Ref sig .tc := ⟨.hbm, 71, rfl⟩
abbrev main_v47 : Ref sig .tc := ⟨.hbm, 72, rfl⟩
abbrev main_v48 : Ref sig .tc := ⟨.hbm, 73, rfl⟩
abbrev main_c_12 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  bcast_S_S4096x2048 : S_.BroadcastsInDim S4096x2048 (![] : Fin 0 → Fin S4096x2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  gather_S4096x2048_S16384x1_S4096x16384_0_1_n_n_1_1_40961_wf : GatherDims.WF S4096x2048 S16384x1 S4096x16384 [0] [1] [] [1] [] 1 ![4096, 1]
  scatter_S4096x2048_S16384x1_S4096x16384_0_1_1_1_wf : ScatterDims.WF S4096x2048 S16384x1 S4096x16384 [0] [1] [1] 1

variable [Facts₀]

def gather_S4096x2048_S16384x1_S4096x16384_0_1_n_n_1_1_40961 : GatherDims S4096x2048 S16384x1 S4096x16384 where
  offsetDims := [0]
  collapsedSliceDims := [1]
  operandBatchingDims := []
  startIndicesBatchingDims := []
  startIndexMap := [1]
  indexVectorDim := 1
  sliceSizes := ![4096, 1]
  wf := gather_S4096x2048_S16384x1_S4096x16384_0_1_n_n_1_1_40961_wf
def scatter_S4096x2048_S16384x1_S4096x16384_0_1_1_1 : ScatterDims S4096x2048 S16384x1 S4096x16384 where
  updateWindowDims := [0]
  insertedWindowDims := [1]
  scatterDimsToOperandDims := [1]
  indexVectorDim := 1
  wf := scatter_S4096x2048_S16384x1_S4096x16384_0_1_1_1_wf

class Facts : Prop extends Facts₀ where

variable [Facts]
-- ==== Proof.KernelIdealKit.lean ====
/- The pieces shared by the three kernel regions' frame proofs: the branch conditions of the two
   accumulating matmul kernels decided over their grids (the reset at the first step of the contraction
   axis, the write-out at its last), where their output window is idle, the staging memrefs as the
   pipeline passes them, and each region's scoped rest split at the accumulator scratch. -/
import proofs.«409374_j40931038331448_3_alg».proof.Proof.KernelIdealLaunch
import proofs.«409374_j40931038331448_3_alg».proof.Proof.Gen.KernelIdeal.Skeleton
import proofs.«409374_j40931038331448_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the first weight product -/

/-- The contraction step is the first one: the accumulator is reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The contraction step is the last one: the accumulator is written out. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
/-- The accumulator scratch. -/
abbrev scM0 : Memref sig .tc .vmem S512x512 .f32 := Memref.whole cc0_scratch0

/-- The scoped buffers that are neither a staging buffer of region 0 nor its accumulator. -/
abbrev others0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA
  rw [Pipeline.scopedRest_split_of_list spec0 c [cc0_scratch0] (by decide) (by decide)]
  simp only [scM0, owns_whole]; try rfl

/-! ## Region 1: the second weight product -/

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .bf16 := win1_2.stage (cfg1.slots t 2)
abbrev hs1_2 (t : Fin cfg1.N) : (ms1_2 t).IsWhole := hstage1_2 ((cfg1.slots t 2).cast nbuf1_2)
abbrev scM1 : Memref sig .tc .vmem S512x512 .f32 := Memref.whole cc1_scratch0

abbrev others1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA
  rw [Pipeline.scopedRest_split_of_list spec1 c [cc1_scratch0] (by decide) (by decide)]
  simp only [scM1, owns_whole]; try rfl

/-! ## Region 2: the product with the input and the bias -/

abbrev ms2_0 (t : Fin cfg2.N) : Memref sig .tc .vmem S512x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x2048 .f32 := win2_3.stage (cfg2.slots t 3)
abbrev hs2_3 (t : Fin cfg2.N) : (ms2_3 t).IsWhole := hstage2_3 ((cfg2.slots t 3).cast nbuf2_3)

end Cert.KernelIdeal.GenP

end
-- ==== Proof.KernelIdealCombine0.lean ====
/- Region 0 (the product of the first two dense weight matrices, accumulated over four steps of the contraction
   axis in a scratch) at a parameter `V`, the buffer contents when the region is entered: the blocks the windows
   stage, what the accumulator holds after each grid point, the body's run in each of its three control cases, the
   proof data and the body obligation. -/
import proofs.«409374_j40931038331448_3_alg».proof.Proof.KernelIdealKit
import Idealize.ShloMosaic.Lib.Pipeline.Value
set_option maxRecDepth 16384

noncomputable section

namespace Cert.KernelIdeal.GenP

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point (both inputs are fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION: what the scratch holds after the body at position `n`. At the first step of the contraction axis
    (`n % 4 = 0`) the zero fill plus this step's block product; at a later step what the point before left plus this
    step's block product. -/
def accAt0 (c : Dev nD) : (n : ℕ) → n < cfg0.N → Vec F S512x512 .f32
  | 0, hn => k0_pay2 (k0_pay1 (F := F)) (iblk0 V c 0 ⟨0, hn⟩) (iblk0 V c 1 ⟨0, hn⟩)
  | n + 1, hn =>
    if (n + 1) % 4 = 0 then k0_pay2 (k0_pay1 (F := F)) (iblk0 V c 0 ⟨n + 1, hn⟩) (iblk0 V c 1 ⟨n + 1, hn⟩)
    else k0_pay2 (accAt0 c n (Nat.lt_of_succ_lt hn)) (iblk0 V c 0 ⟨n + 1, hn⟩) (iblk0 V c 1 ⟨n + 1, hn⟩)

theorem accAt0_first (c : Dev nD) (t : Fin cfg0.N) (h0 : t.val % 4 = 0) :
    accAt0 V c t.val t.isLt = k0_pay2 (k0_pay1 (F := F)) (iblk0 V c 0 t) (iblk0 V c 1 t) := by
  obtain ⟨n, hn⟩ := t
  cases n with
  | zero => rfl
  | succ n => exact if_pos h0
theorem accAt0_later (c : Dev nD) (t : Fin cfg0.N) (h0 : ¬t.val % 4 = 0) :
    accAt0 V c t.val t.isLt = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact if_neg h0

/-! ## The body's run, case by case -/

/-- The zero offsets of a whole-buffer rectangle. -/
theorem run0_hz : (![0, 0] : Fin 2 → Nat) = fun _ => 0 := funext fun a => by fin_cases a <;> rfl

set_option maxHeartbeats 2000000 in
/-- First step of the contraction axis: the scratch, at anything, is zero-filled and the block product added; the
    output's staging buffer is left as found. -/
theorem run0_first (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole)
    (hc0 : cond0_0 i) (hc1 : ¬cond0_1 i) (x0 x1 xi : Vec F S512x512 .bf16) (E : Set ℕ) (K : PUnit → sProp 𝕄) :
    iprop(owns (c : Thread nD τ) arg3 fullShare x0 ∗ owns (c : Thread nD τ) arg4 fullShare x1 ∗ owns (c : Thread nD τ) arg5 fullShare xi
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi
            ∗ owns (c : Thread nD τ) arg6 fullShare (k0_pay2 (k0_pay1 (F := F)) x0 x1)) -∗ K ⟨⟩))
      ⊢ wp frame (wpE (defs₀ (F := F)) Variants.none c none) E (cc0__combine_kernel i arg3 harg3 arg4 harg4 arg5 harg5 arg6 harg6) K := by
  simp only [cc0__combine_kernel_eq_skeleton]; unfold cc0__combine_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_words
  rw [View.read_writes_eq_canon _ _ _ (fun y => ⟨_, List.mem_cons_self, View.mem_set_unit_zero run0_hz inb_S512x512_S512x512_0_0 y⟩),
    View.canon_cons_unit_zero (S := S512x512) run0_hz]
  simp only [View.readAt_eq_ld, harg3.read_unread, harg4.read_unread, View.ld_unit_zero (S := S512x512) run0_hz,
    View.readCov_unit_zero (S := S512x512) _ run0_hz]

set_option maxHeartbeats 2000000 in
/-- A middle step: the block product is added to what the scratch held; the output's staging buffer is left as found. -/
theorem run0_middle (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole)
    (hc0 : ¬cond0_0 i) (hc1 : ¬cond0_1 i) (x0 x1 xi : Vec F S512x512 .bf16) (acc : Vec F S512x512 .f32) (E : Set ℕ) (K : PUnit → sProp 𝕄) :
    iprop(owns (c : Thread nD τ) arg3 fullShare x0 ∗ owns (c : Thread nD τ) arg4 fullShare x1 ∗ owns (c : Thread nD τ) arg5 fullShare xi
        ∗ owns (c : Thread nD τ) arg6 fullShare acc
        ∗ (iprop(owns (c : Thread nD τ) arg3 fullShare x0 ∗ owns (c : Thread nD τ) arg4 fullShare x1 ∗ owns (c : Thread nD τ) arg5 fullShare xi
            ∗ owns (c : Thread nD τ) arg6 fullShare (k0_pay2 acc x0 x1)) -∗ K ⟨⟩))
      ⊢ wp frame (wpE (defs₀ (F := F)) Variants.none c none) E (cc0__combine_kernel i arg3 harg3 arg4 harg4 arg5 harg5 arg6 harg6) K := by
  simp only [cc0__combine_kernel_eq_skeleton]; unfold cc0__combine_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [View.read_writes_eq_canon _ _ _ (fun y => ⟨_, List.mem_singleton_self _, View.mem_set_unit_zero run0_hz inb_S512x512_S512x512_0_0 y⟩), View.canon_unit_zero run0_hz]
  simp only [View.readAt_eq_ld, harg6.read_unread, harg3.read_unread, harg4.read_unread, View.ld_unit_zero (S := S512x512) run0_hz]

set_option maxHeartbeats 2000000 in
/-- The last step: the block product is added to what the scratch held and the sum, rounded to the output's format,
    stored over the output's staging buffer (held at anything). -/
theorem run0_last (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole)
    (hc0 : ¬cond0_0 i) (hc1 : cond0_1 i) (x0 x1 : Vec F S512x512 .bf16) (acc : Vec F S512x512 .f32) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare acc
        ∗ (iprop(owns (c : Thread nD τ) arg3 fullShare x0 ∗ owns (c : Thread nD τ) arg4 fullShare x1
            ∗ owns (c : Thread nD τ) arg5 fullShare (k0_pay3 (k0_pay2 acc x0 x1))
            ∗ owns (c : Thread nD τ) arg6 fullShare (k0_pay2 acc x0 x1)) -∗ K ⟨⟩))
      ⊢ wp frame (wpE (defs₀ (F := F)) Variants.none c none) E (cc0__combine_kernel i arg3 harg3 arg4 harg4 arg5 harg5 arg6 harg6) K := by
  simp only [cc0__combine_kernel_eq_skeleton]; unfold cc0__combine_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_eq_canon _ _ _ (fun y => ⟨_, List.mem_singleton_self _, View.mem_set_unit_zero run0_hz inb_S512x512_S512x512_0_0 y⟩),
      View.canon_unit_zero run0_hz]
    simp only [View.readAt_eq_ld, harg6.read_unread, harg3.read_unread, harg4.read_unread, View.ld_unit_zero (S := S512x512) run0_hz,
      View.readCov_unit_zero (S := S512x512) _ run0_hz]
  iexists _; isplitr
  swap; · iexact HS
  ipureintro
  sl_unfold_words
  rw [View.read_writes_eq_canon _ _ _ (fun y => ⟨_, List.mem_singleton_self _, View.mem_set_unit_zero run0_hz inb_S512x512_S512x512_0_0 y⟩),
    View.canon_unit_zero run0_hz]
  simp only [View.readAt_eq_ld, harg6.read_unread, harg3.read_unread, harg4.read_unread, View.ld_unit_zero (S := S512x512) run0_hz]

/-! ## The invariant and the proof data -/

/-- The region invariant before position `n`: before the first point the class's (every scoped buffer that is no
    staging buffer at anything, the generator register at some state); afterwards the same with the accumulator at
    what the point before left. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ others0 c) ∗ (∃ r, prngReg c r)) := by
  cases n with
  | zero => exact absurd rfl hz
  | succ n => rfl

/-- The proof data of pipeline 0 on core `c`: the arrays as the region finds them; after the body at point `t` each
    input's buffer at its block and the output's at the accumulator after `t` rounded to the output's format (read only
    at the last step of the contraction axis, where the body stores it and the pipeline writes it back); the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (accAt0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem PhiS0_castSucc (c : Dev nD) (t : Fin cfg0.N) :
    (dat0 V c).Φ t.castSucc = PhiS0 V c t.val (Nat.le_of_lt t.isLt) := by
  dsimp only [dat0]; simp only [Fin.coe_castSucc]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the position along the contraction axis says which
    control case the point is in. The invariant hands the body the accumulator at what the point before left (at
    anything at a first step) and takes it back at this point's contents. Away from the last step the output's buffer
    is idle and handed back as found; at the last step it is left at the rounded accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [accAt0_first V c t h0]
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩⟩
      iapply (run0_first c (grid0.coords t) _ _ _ _ _ _ _ _ hc0 hc1 (iblk0 V c 0 t) (iblk0 V c 1 t) ((dat0 V c).before 2 t d2) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hoth⟩, Hg⟩, Ho, ⟨%d0, H0⟩, ⟨%d1, H1⟩, ⟨%d2, H2⟩⟩
      iapply (run0_first c (grid0.coords t) _ _ _ _ _ _ _ _ hc0 hc1 (iblk0 V c 0 t) (iblk0 V c 1 t) ((dat0 V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hz : t.val ≠ 0 := fun h => h0 (by rw [h])
    rw [PhiS0_castSucc V c t, PhiS0_pos V c _ _ hz, accAt0_later V c t h0]
    by_cases h1 : t.val % 4 = 3
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2, accAt0_later V c t h0]
      iintro ⟨⟨⟨HS, Hoth⟩, Hg⟩, Ho, ⟨%d0, H0⟩, ⟨%d1, H1⟩, ⟨%d2, H2⟩⟩
      iapply (run0_last c (grid0.coords t) _ _ _ _ _ _ _ _ hc0 hc1 (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS, Hoth⟩, Hg⟩, Ho, ⟨%d0, H0⟩, ⟨%d1, H1⟩, ⟨%d2, H2⟩⟩
      iapply (run0_middle c (grid0.coords t) _ _ _ _ _ _ _ _ hc0 hc1 (iblk0 V c 0 t) (iblk0 V c 1 t) ((dat0 V c).before 2 t d2) _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _
/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Ho⟩, Hg⟩
  isplitl [HS0 Ho]
  · isplitl [HS0]
    · iexists _; iexact HS0
    · iexact Ho
  iexact Hg

end Region0

end Cert.KernelIdeal.GenP

end
-- ==== Proof.KernelIdealFused2.lean ====
/- Region 2 (the input times the combined weight matrix, plus the bias row) at a parameter `V`, the buffer contents
   when the region is entered: the blocks the windows stage, the body's run, the proof data and the body obligation.
   The body has one control path and stores its output block whole at every point. -/
import proofs.«409374_j40931038331448_3_alg».proof.Proof.KernelIdealKit
import Idealize.ShloMosaic.Lib.Pipeline.Value
set_option maxRecDepth 16384

noncomputable section

namespace Cert.KernelIdeal.GenP

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One store through the whole-shape rectangle at zero offsets (however the zeros are spelt) leaves its payload as
    the view's contents, whatever they were before. -/
theorem read_writes_unit_zero {Val : EltTy → Type} [∀ e, Nonempty (Val e)] {sg : RefSig} {κ : Kind} {sp : Space}
    {S : Shape} {e : EltTy} (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h inb]

/-- A load through that rectangle reads the view's contents. -/
theorem readAt_unit_zero_eq_read {Val : EltTy → Type} {sg : RefSig} {κ : Kind} {sp : Space}
    {S : Shape} {e : EltTy} (v : View sg κ sp S e) (f : v.ty.Contents Val) {off : Fin S.rank → Nat}
    (h : off = fun _ => 0) (inb : ∀ a, off a + S.size a ≤ S.size a) :
    v.readAt Val (Rect.unit off S.size inb).toLoadRect f = v.read Val f :=
  (View.readAt_eq_ld v f _).trans (View.ld_unit_zero h inb _)

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (the weight
    matrix and the bias row are fetched once, their block index never moving). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  exact (dat.before_in_eq_fetched 0 rfl (fun _ => rfl) (fun _ _ _ => rfl)
      (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  exact (dat.before_in_eq_fetched 1 rfl (fun _ => rfl) (fun _ _ _ => rfl)
      (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  exact (dat.before_in_eq_fetched 2 rfl (fun _ => rfl) (fun _ _ _ => rfl)
      (fun t => by rw [hafter]; unfold Dat.blockOf iblk2; rw [hA]; try rfl) t d).trans
    (by unfold Dat.fetched Dat.blockOf iblk2; rw [hA]; try rfl)

set_option maxHeartbeats 1000000 in
/-- The body on whole staging memrefs, the inputs' at read contents and the output's at anything, runs to the
    continuation holding the inputs' as they were and the output's at the block product plus the bias row. -/
theorem run2 (c : Dev nD) (i : grid2.Coords) (arg1 : Memref sig .tc .vmem S512x2048 .f32) (harg1 : arg1.IsWhole) (arg2 : Memref sig .tc .vmem S2048x2048 .bf16) (harg2 : arg2.IsWhole) (arg3 : Memref sig .tc .vmem S1x2048 .f32) (harg3 : arg3.IsWhole) (arg4 : Memref sig .tc .vmem S512x2048 .f32) (harg4 : arg4.IsWhole)
    (x0 : Vec F S512x2048 .f32) (x1 : Vec F S2048x2048 .bf16) (x2 : Vec F S1x2048 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay1 x0 x1 x2)) -∗ K ⟨⟩))
      ⊢ wp frame (wpE (defs₀ (F := F)) Variants.none c none) E (cc2__fused_kernel i arg1 harg1 arg2 harg2 arg3 harg3 arg4 harg4) K := by
  simp only [cc2__fused_kernel_eq_skeleton]; unfold cc2__fused_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one store covers the whole block, so the buffer reads back the store's payload; and each load through the
  -- whole-block rectangle at offset zero reads the buffer's contents
  have hz : (![0, 0] : Fin 2 → Nat) = fun _ => 0 := funext fun a => by fin_cases a <;> rfl
  rw [read_writes_unit_zero _ _ hz, readAt_unit_zero_eq_read _ _ hz, readAt_unit_zero_eq_read _ _ hz,
    readAt_unit_zero_eq_read _ _ hz]

/-- The proof data of pipeline 2 on core `c`: the arrays as the region finds them; after the body at point `t` each
    input's buffer at its block and the output's at the block product plus the bias row; the class's invariant;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay1 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the three inputs' memrefs hold their blocks, so the body's run applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (run2 c _ _ _ _ _ _ _ _ _ (iblk2 V c 0 t) (iblk2 V c 1 t) (iblk2 V c 2 t) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := by
  intro t
  rw [bigSep_W2, bigSep_W2]
  exact sound_body2 V c t

end Region2

end Cert.KernelIdeal.GenP

end
-- ==== Proof.KernelIdealStates.lean ====
/- The buffer contents at each boundary of @main, as a fold from the launch memory: after the host operations
   that build the three dense weight matrices, after each of the two weight products (the region's arrays at what its
   write-backs leave), after the reshape of the bias, and after the last region. -/
import proofs.«409374_j40931038331448_3_alg».proof.Proof.KernelIdealCombine0
import proofs.«409374_j40931038331448_3_alg».proof.Proof.KernelIdealCombine1
import proofs.«409374_j40931038331448_3_alg».proof.Proof.KernelIdealFused2
set_option maxRecDepth 16384

noncomputable section

namespace Cert.KernelIdeal.GenP

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev B0 : Dev nD → Valuation τ sig (Elt F) := fun c b => m (c, b)
/-- After the host operations before the first region. -/
abbrev B1 : Dev nD → Valuation τ sig (Elt F) := fun c => StableHlo.after hostOps0 (B0 m c)
/-- The same read at the TensorCore's references: what region 0 is entered from. -/
abbrev E1 : (c : Dev nD) → (b : Ref sig .tc) → Buf (Elt F) ((c : Thread nD τ).loc b) := fun c b => B1 m c b
/-- At region 0's exit: its arrays at what the pipeline leaves, every other buffer as entered. -/
def B2 (c : Dev nD) : Valuation τ sig (Elt F) :=
  Pipeline.withArrays spec0 c (B1 m c) fun w => (dat0 (E1 m) c).arrAt w cfg0.N
/-- What region 1 is entered from. -/
abbrev E2 : (c : Dev nD) → (b : Ref sig .tc) → Buf (Elt F) ((c : Thread nD τ).loc b) := fun c b => B2 m c b
/-- At region 1's exit. -/
def B3 (c : Dev nD) : Valuation τ sig (Elt F) :=
  Pipeline.withArrays spec1 c (B2 m c) fun w => (dat1 (E2 m) c).arrAt w cfg1.N
/-- After the reshape of the bias. -/
abbrev B4 : Dev nD → Valuation τ sig (Elt F) := fun c => StableHlo.after hostOps2 (B3 m c)
/-- What region 2 is entered from. -/
abbrev E4 : (c : Dev nD) → (b : Ref sig .tc) → Buf (Elt F) ((c : Thread nD τ).loc b) := fun c b => B4 m c b
/-- At region 2's exit: the end of @main. -/
def B5 (c : Dev nD) : Valuation τ sig (Elt F) :=
  Pipeline.withArrays spec2 c (B4 m c) fun w => (dat2 (E4 m) c).arrAt w cfg2.N

theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
theorem B5_arr (c : Dev nD) (w : Fin cfg2.W) :
    B5 m c (Proc.devRef .tc (Pipeline.arrRef spec2 w)) = (dat2 (E4 m) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m c (Proc.devRef .tc b) = B4 m c (Proc.devRef .tc b) := by
  unfold B5; exact Pipeline.withArrays_of_ne spec2 c _ _ b hb

end Cert.KernelIdeal.GenP

end
-- ==== Proof.KernelIdealRun.lean ====
/- The run of @main through its five segments: the host operations that build the dense weight matrices, the two
   accumulated weight products, the reshape of the bias, and the product with the input. Each region is entered from
   the buffer contents the fold of KernelIdealStates gives at its boundary and left at the next one's; from the run,
   every argument array ends as launched, and the result array holds what the last region's write-backs leave. -/
import proofs.«409374_j40931038331448_3_alg».proof.Proof.KernelIdealStates
import proofs.«409374_j40931038331448_3_alg».proof.Proof.KernelIdealRegions
set_option maxRecDepth 16384

noncomputable section

namespace Cert.KernelIdeal.GenP

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The boundary contents read at the TensorCore's references, and each region's exit facts -/

/-- Region 1's exit contents, read at the TensorCore's references. -/
abbrev E3 : (c : Dev nD) → (b : Ref sig .tc) → Buf (Elt F) ((c : Thread nD τ).loc b) := fun c b => B3 m c b
/-- Region 2's exit contents, read at the TensorCore's references. -/
abbrev E5 : (c : Dev nD) → (b : Ref sig .tc) → Buf (Elt F) ((c : Thread nD τ).loc b) := fun c b => B5 m c b

/-- At region 0's exit each of its arrays holds what the pipeline leaves, and every other buffer what it held at entry. -/
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- The same at region 1's exit, -/
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)
/-- and at region 2's. -/
theorem hF2 (c : Dev nD) (w : Fin cfg2.W) : (dat2 (E4 m) c).arrAt w cfg2.N = E5 m c (Pipeline.arrRef spec2 w) :=
  (B5_arr m c w).symm
theorem hrest2 (c : Dev nD) : ∀ b, b ∉ Finset.univ.image (Pipeline.arrRef spec2) → E5 m c b = E4 m c b :=
  fun b hb => B5_of_ne m c b fun w e => hb (Finset.mem_image.mpr ⟨w, Finset.mem_univ _, e⟩)

/-! ## The arguments end as launched

No host operation writes an argument. The two weight products stage none. The last region stages the input
`main_arg0` through an INPUT window, whose array the pipeline leaves as entered; the other ten bypass every region. -/

theorem B5_main_arg0 (c : Dev nD) : B5 m c (Proc.devRef .tc main_arg0) = m ((c : Thread nD τ).loc main_arg0) :=
  calc B5 m c (Proc.devRef .tc main_arg0)
    _ = B4 m c (Proc.devRef .tc main_arg0) := (B5_arr m c 0).trans (((dat2 (E4 m) c).arrAt_in 0 rfl _).trans (A_eq2 (E4 m) c 0))
    _ = B3 m c (Proc.devRef .tc main_arg0) := StableHlo.after_of_writes_sub hostOps2 _ hostOps2_writes (by decide)
    _ = B2 m c (Proc.devRef .tc main_arg0) := B3_of_ne m c main_arg0 (by decide)
    _ = B1 m c (Proc.devRef .tc main_arg0) := B2_of_ne m c main_arg0 (by decide)
    _ = B0 m c (Proc.devRef .tc main_arg0) := StableHlo.after_of_writes_sub hostOps0 _ hostOps0_writes (by decide)
    _ = m ((c : Thread nD τ).loc main_arg0) := rfl
theorem B5_main_arg1 (c : Dev nD) : B5 m c (Proc.devRef .tc main_arg1) = m ((c : Thread nD τ).loc main_arg1) :=
  calc B5 m c (Proc.devRef .tc main_arg1)
    _ = B4 m c (Proc.devRef .tc main_arg1) := B5_of_ne m c main_arg1 (by decide)
    _ = B3 m c (Proc.devRef .tc main_arg1) := StableHlo.after_of_writes_sub hostOps2 _ hostOps2_writes (by decide)
    _ = B2 m c (Proc.devRef .tc main_arg1) := B3_of_ne m c main_arg1 (by decide)
    _ = B1 m c (Proc.devRef .tc main_arg1) := B2_of_ne m c main_arg1 (by decide)
    _ = B0 m c (Proc.devRef .tc main_arg1) := StableHlo.after_of_writes_sub hostOps0 _ hostOps0_writes (by decide)
    _ = m ((c : Thread nD τ).loc main_arg1) := rfl
theorem B5_main_arg2 (c : Dev nD) : B5 m c (Proc.devRef .tc main_arg2) = m ((c : Thread nD τ).loc main_arg2) :=
  calc B5 m c (Proc.devRef .tc main_arg2)
    _ = B4 m c (Proc.devRef .tc main_arg2) := B5_of_ne m c main_arg2 (by decide)
    _ = B3 m c (Proc.devRef .tc main_arg2) := StableHlo.after_of_writes_sub hostOps2 _ hostOps2_writes (by decide)
    _ = B2 m c (Proc.devRef .tc main_arg2) := B3_of_ne m c main_arg2 (by decide)
    _ = B1 m c (Proc.devRef .tc main_arg2) := B2_of_ne m c main_arg2 (by decide)
    _ = B0 m c (Proc.devRef .tc main_arg2) := StableHlo.after_of_writes_sub hostOps0 _ hostOps0_writes (by decide)
    _ = m ((c : Thread nD τ).loc main_arg2) := rfl
theorem B5_main_arg3 (c : Dev nD) : B5 m c (Proc.devRef .tc main_arg3) = m ((c : Thread nD τ).loc main_arg3) :=
  calc B5 m c (Proc.devRef .tc main_arg3)
    _ = B4 m c (Proc.devRef .tc main_arg3) := B5_of_ne m c main_arg3 (by decide)
    _ = B3 m c (Proc.devRef .tc main_arg3) := StableHlo.after_of_writes_sub hostOps2 _ hostOps2_writes (by decide)
    _ = B2 m c (Proc.devRef .tc main_arg3) := B3_of_ne m c main_arg3 (by decide)
    _ = B1 m c (Proc.devRef .tc main_arg3) := B2_of_ne m c main_arg3 (by decide)
    _ = B0 m c (Proc.devRef .tc main_arg3) := StableHlo.after_of_writes_sub hostOps0 _ hostOps0_writes (by decide)
    _ = m ((c : Thread nD τ).loc main_arg3) := rfl
theorem B5_main_arg4 (c : Dev nD) : B5 m c (Proc.devRef .tc main_arg4) = m ((c : Thread nD τ).loc main_arg4) :=
  calc B5 m c (Proc.devRef .tc main_arg4)
    _ = B4 m c (Proc.devRef .tc main_arg4) := B5_of_ne m c main_arg4 (by decide)
    _ = B3 m c (Proc.devRef .tc main_arg4) := StableHlo.after_of_writes_sub hostOps2 _ hostOps2_writes (by decide)
    _ = B2 m c (Proc.devRef .tc main_arg4) := B3_of_ne m c main_arg4 (by decide)
    _ = B1 m c (Proc.devRef .tc main_arg4) := B2_of_ne m c main_arg4 (by decide)
    _ = B0 m c (Proc.devRef .tc main_arg4) := StableHlo.after_of_writes_sub hostOps0 _ hostOps0_writes (by decide)
    _ = m ((c : Thread nD τ).loc main_arg4) := rfl
theorem B5_main_arg5 (c : Dev nD) : B5 m c (Proc.devRef .tc main_arg5) = m ((c : Thread nD τ).loc main_arg5) :=
  calc B5 m c (Proc.devRef .tc main_arg5)
    _ = B4 m c (Proc.devRef .tc main_arg5) := B5_of_ne m c main_arg5 (by decide)
    _ = B3 m c (Proc.devRef .tc main_arg5) := StableHlo.after_of_writes_sub hostOps2 _ hostOps2_writes (by decide)
    _ = B2 m c (Proc.devRef .tc main_arg5) := B3_of_ne m c main_arg5 (by decide)
    _ = B1 m c (Proc.devRef .tc main_arg5) := B2_of_ne m c main_arg5 (by decide)
    _ = B0 m c (Proc.devRef .tc main_arg5) := StableHlo.after_of_writes_sub hostOps0 _ hostOps0_writes (by decide)
    _ = m ((c : Thread nD τ).loc main_arg5) := rfl
theorem B5_main_arg6 (c : Dev nD) : B5 m c (Proc.devRef .tc main_arg6) = m ((c : Thread nD τ).loc main_arg6) :=
  calc B5 m c (Proc.devRef .tc main_arg6)
    _ = B4 m c (Proc.devRef .tc main_arg6) := B5_of_ne m c main_arg6 (by decide)
    _ = B3 m c (Proc.devRef .tc main_arg6) := StableHlo.after_of_writes_sub hostOps2 _ hostOps2_writes (by decide)
    _ = B2 m c (Proc.devRef .tc main_arg6) := B3_of_ne m c main_arg6 (by decide)
    _ = B1 m c (Proc.devRef .tc main_arg6) := B2_of_ne m c main_arg6 (by decide)
    _ = B0 m c (Proc.devRef .tc main_arg6) := StableHlo.after_of_writes_sub hostOps0 _ hostOps0_writes (by decide)
    _ = m ((c : Thread nD τ).loc main_arg6) := rfl
theorem B5_main_arg7 (c : Dev nD) : B5 m c (Proc.devRef .tc main_arg7) = m ((c : Thread nD τ).loc main_arg7) :=
  calc B5 m c (Proc.devRef .tc main_arg7)
    _ = B4 m c (Proc.devRef .tc main_arg7) := B5_of_ne m c main_arg7 (by decide)
    _ = B3 m c (Proc.devRef .tc main_arg7) := StableHlo.after_of_writes_sub hostOps2 _ hostOps2_writes (by decide)
    _ = B2 m c (Proc.devRef .tc main_arg7) := B3_of_ne m c main_arg7 (by decide)
    _ = B1 m c (Proc.devRef .tc main_arg7) := B2_of_ne m c main_arg7 (by decide)
    _ = B0 m c (Proc.devRef .tc main_arg7) := StableHlo.after_of_writes_sub hostOps0 _ hostOps0_writes (by decide)
    _ = m ((c : Thread nD τ).loc main_arg7) := rfl
theorem B5_main_arg8 (c : Dev nD) : B5 m c (Proc.devRef .tc main_arg8) = m ((c : Thread nD τ).loc main_arg8) :=
  calc B5 m c (Proc.devRef .tc main_arg8)
    _ = B4 m c (Proc.devRef .tc main_arg8) := B5_of_ne m c main_arg8 (by decide)
    _ = B3 m c (Proc.devRef .tc main_arg8) := StableHlo.after_of_writes_sub hostOps2 _ hostOps2_writes (by decide)
    _ = B2 m c (Proc.devRef .tc main_arg8) := B3_of_ne m c main_arg8 (by decide)
    _ = B1 m c (Proc.devRef .tc main_arg8) := B2_of_ne m c main_arg8 (by decide)
    _ = B0 m c (Proc.devRef .tc main_arg8) := StableHlo.after_of_writes_sub hostOps0 _ hostOps0_writes (by decide)
    _ = m ((c : Thread nD τ).loc main_arg8) := rfl
theorem B5_main_arg9 (c : Dev nD) : B5 m c (Proc.devRef .tc main_arg9) = m ((c : Thread nD τ).loc main_arg9) :=
  calc B5 m c (Proc.devRef .tc main_arg9)
    _ = B4 m c (Proc.devRef .tc main_arg9) := B5_of_ne m c main_arg9 (by decide)
    _ = B3 m c (Proc.devRef .tc main_arg9) := StableHlo.after_of_writes_sub hostOps2 _ hostOps2_writes (by decide)
    _ = B2 m c (Proc.devRef .tc main_arg9) := B3_of_ne m c main_arg9 (by decide)
    _ = B1 m c (Proc.devRef .tc main_arg9) := B2_of_ne m c main_arg9 (by decide)
    _ = B0 m c (Proc.devRef .tc main_arg9) := StableHlo.after_of_writes_sub hostOps0 _ hostOps0_writes (by decide)
    _ = m ((c : Thread nD τ).loc main_arg9) := rfl
theorem B5_main_arg10 (c : Dev nD) : B5 m c (Proc.devRef .tc main_arg10) = m ((c : Thread nD τ).loc main_arg10) :=
  calc B5 m c (Proc.devRef .tc main_arg10)
    _ = B4 m c (Proc.devRef .tc main_arg10) := B5_of_ne m c main_arg10 (by decide)
    _ = B3 m c (Proc.devRef .tc main_arg10) := StableHlo.after_of_writes_sub hostOps2 _ hostOps2_writes (by decide)
    _ = B2 m c (Proc.devRef .tc main_arg10) := B3_of_ne m c main_arg10 (by decide)
    _ = B1 m c (Proc.devRef .tc main_arg10) := B2_of_ne m c main_arg10 (by decide)
    _ = B0 m c (Proc.devRef .tc main_arg10) := StableHlo.after_of_writes_sub hostOps0 _ hostOps0_writes (by decide)
    _ = m ((c : Thread nD τ).loc main_arg10) := rfl

/-- The result array at the end: what the last region's write-backs leave in its output window's array. -/
theorem B5_main_v51 (c : Dev nD) : B5 m c (Proc.devRef .tc main_v51) = (dat2 (E4 m) c).arrAt 3 cfg2.N :=
  B5_arr m c 3

/-! ## The proof data family and the thread state -/

/-- Every pipeline's proof data, each at its region's entry contents: a literal match, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
  | ⟨2, _⟩ => fun c => dat2 (E4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (each region's
    invariant takes it in and gives it back) and the core owing nothing. -/
abbrev Rd (c : Dev nD) : sProp 𝕄 := iprop((∃ r, prngReg c r) ∗ ∃ W, owes (c : Thread nD τ) (0 : CellTallies nD τ sig Unit) W)
/-- A stretch of host operations as a segment over the unscoped references from the contents `W`, `Rd` riding along:
    it leaves those references at the stretch's fold of `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes (the chain ends at it beside the core owing nothing): every
    unscoped buffer at the last boundary's contents, the generator register at some state. -/
abbrev Tₙ (c : Dev nD) : sProp 𝕄 := iprop(StableHlo.held (c : Thread nD τ) (Pipeline.ucRefs τ sig) (B5 m c) ∗ ∃ r, prngReg c r)

/-! ## The regions as segments -/

set_option backward.isDefEq.respectTransparency.types false in
/-- REGION 0 over the thread state: entered from every unscoped buffer at `B1`, left at `B2`. Its arrays split
    out of the unscoped buffers and put back at the exit contents; the generator register into the region invariant
    and out; nothing owed; no semaphore of the kernel's own. The invariant carries the accumulator: it is entered
    from the class's invariant and gives the class's back, the accumulator's last contents forgotten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ Rd c)
  post c := iprop(StableHlo.held (c : Thread nD τ) (Pipeline.ucRefs τ sig) (B2 m c) ∗ Rd c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (E1 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `B2`, left at `B3`. Its arrays split
    out of the unscoped buffers and put back at the exit contents; the generator register into the region invariant
    and out; nothing owed; no semaphore of the kernel's own. The invariant carries the accumulator: it is entered
    from the class's invariant and gives the class's back, the accumulator's last contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ Rd c)
  post c := iprop(StableHlo.held (c : Thread nD τ) (Pipeline.ucRefs τ sig) (B3 m c) ∗ Rd c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (E2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `B4`, left at `B5`. Its arrays split
    out of the unscoped buffers and put back at the exit contents; the generator register into the region invariant
    and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m) c).loose
  hwaits := Pipeline.hwaits_of_owed_zero _ _ _ _ L lv 2 fun _ _ => rfl
  pre c := iprop(StableHlo.held (c : Thread nD τ) (Pipeline.ucRefs τ sig) (B4 m c) ∗ Rd c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five segments in order: a host segment per stretch from its boundary's contents, a region per kernel call. -/
abbrev runSegs : List (Pipeline.Seg (pcfgs (F := F)) adm (pdats m) () defs₀ 𝒱₀ L lv) :=
  [ .host (hseg hostOps0 hostOps0_sub hostOps0_fresh (B0 m)),
    .region (reg0 m),
    .region (reg1 m),
    .host (hseg hostOps2 hostOps2_sub hostOps2_fresh (B3 m)),
    .region (reg2 m) ]

set_option backward.isDefEq.respectTransparency.types false in
/-- THE RUN: from any memory with zero counters, every weakly fair execution of @main on the TensorCores terminates,
    nothing faulting, and every final memory holds each unscoped buffer at the last boundary's contents `B5`: the
    launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) adm (pdats m) () cellOf_inj emb₁ defs₀ 𝒱₀ L lv m ρ main (runSegs m)
    (fun c Q => by
      rewrite [main_chain c, Pipeline.Seg.run_eq_chain,
        show (runSegs m).map Pipeline.Seg.prog = [
          StableHlo.seq hostOps0,
          Prog.lift (.customCall (Pipeline.entry 0) ()),
          Prog.lift (.customCall (Pipeline.entry 1) ()),
          StableHlo.seq hostOps2,
          Prog.lift (.customCall (Pipeline.entry 2) ()) ] from rfl]
      exact .rfl)
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rd c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h => h)

/-- THE RUN, naming the result: every final memory holds the result array at what the last region's write-backs
    leave and each argument array as launched. -/
theorem run_value : θ_run defs (onTc (τ := τ) (main (F := F))) ⟨m, fun _ => 0, ρ⟩ (fun r => ∀ c : Dev nD,
      r.2.mem ((c.tc : Thread nD τ).loc main_v51) = (dat2 (E4 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_v51 (by decide))).trans (B5_main_v51 m c),
      (h c _ (mem_uc main_arg0 (by decide))).trans (B5_main_arg0 m c),
      (h c _ (mem_uc main_arg1 (by decide))).trans (B5_main_arg1 m c),
      (h c _ (mem_uc main_arg2 (by decide))).trans (B5_main_arg2 m c),
      (h c _ (mem_uc main_arg3 (by decide))).trans (B5_main_arg3 m c),
      (h c _ (mem_uc main_arg4 (by decide))).trans (B5_main_arg4 m c),
      (h c _ (mem_uc main_arg5 (by decide))).trans (B5_main_arg5 m c),
      (h c _ (mem_uc main_arg6 (by decide))).trans (B5_main_arg6 m c),
      (h c _ (mem_uc main_arg7 (by decide))).trans (B5_main_arg7 m c),
      (h c _ (mem_uc main_arg8 (by decide))).trans (B5_main_arg8 m c),
      (h c _ (mem_uc main_arg9 (by decide))).trans (B5_main_arg9 m c),
      (h c _ (mem_uc main_arg10 (by decide))).trans (B5_main_arg10 m c)⟩) (run_all m ρ)

/-- THE FRAME: every weakly fair execution of @main terminates, nothing faulting, and every final memory has the
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (B5_main_arg0 m c),
      (h c _ (mem_uc main_arg1 (by decide))).trans (B5_main_arg1 m c),
      (h c _ (mem_uc main_arg2 (by decide))).trans (B5_main_arg2 m c),
      (h c _ (mem_uc main_arg3 (by decide))).trans (B5_main_arg3 m c),
      (h c _ (mem_uc main_arg4 (by decide))).trans (B5_main_arg4 m c),
      (h c _ (mem_uc main_arg5 (by decide))).trans (B5_main_arg5 m c),
      (h c _ (mem_uc main_arg6 (by decide))).trans (B5_main_arg6 m c),
      (h c _ (mem_uc main_arg7 (by decide))).trans (B5_main_arg7 m c),
      (h c _ (mem_uc main_arg8 (by decide))).trans (B5_main_arg8 m c),
      (h c _ (mem_uc main_arg9 (by decide))).trans (B5_main_arg9 m c),
      (h c _ (mem_uc main_arg10 (by decide))).trans (B5_main_arg10 m c)⟩) (run_all m ρ)

end Cert.KernelIdeal.GenP

end
-- ==== Proof.ValueDefs.lean ====
/- The two programs' results as functions of the argument arrays, index by index, over the extended reals.

   An index word of a sparse matrix is first wrapped (a negative word has the extent 2048 added: `wrapW`). A scatter
   lands it where the wrapped word, read signed, lies in `[0, 2048)` and drops it otherwise (`land`); a gather
   clamps it into that range (`clampG`). `denseE` is the dense transpose a scatter-add of the values at (column,
   row) builds from zeros; `stepE` is one step of the reference (gather the columns, scale by the values,
   scatter-add by rows, from zeros); `mmE` is the product of two 2048×2048 matrices and `applyE` the product of the
   input with a matrix plus the bias along the rows. `kerE` and `refE` are the kernel's and the reference's results. -/
import Idealize.ShloMosaic.PureOps.Ideal
import Idealize.ShloMosaic.Lib.ValueIdx

noncomputable section

namespace Cert.Val

open Idealize.ShloMosaic Idealize.ShloMosaic.ValueIdx
open scoped BigOperators

abbrev SX : Shape := ⟨2, ![4096, 2048]⟩
abbrev SW : Shape := ⟨2, ![2048, 2048]⟩
abbrev SN : Shape := ⟨1, ![16384]⟩
abbrev SD : Shape := ⟨1, ![2048]⟩

/-- The wrapped index word: a negative word has the extent added. -/
def wrapW (w : BitVec 32) : BitVec 32 := Scalar.select (IntOp.cmpi .slt w 0#32) (IntOp.addi w 2048#32) w

/-- Where a scatter lands the word: inside `[0, 2048)` after wrapping, or nowhere. -/
def land (w : BitVec 32) : Option (Fin 2048) :=
  if h : 0 ≤ (wrapW w).toInt ∧ (wrapW w).toInt < 2048 then some ⟨(wrapW w).toInt.toNat, by omega⟩ else none

/-- Where a gather reads for the word: the wrapped word clamped into `[0, 2047]`. -/
def clampG (w : BitVec 32) : Fin 2048 := ⟨min (wrapW w).toInt.toNat 2047, by omega⟩

open Classical in
/-- The dense transpose built by scatter-adding the values at (column, row) into zeros. -/
def denseE (cols rows : SN.Idx → BitVec 32) (vals : SN.Idx → EReal) : SW.Idx → EReal :=
  fun j => 0 + ∑ n ∈ Finset.univ.filter (fun n : SN.Idx => land (cols n) = some (j 0) ∧ land (rows n) = some (j 1)), vals n

open Classical in
/-- One step of the reference: gather the columns, scale by the values, scatter-add by rows into zeros. -/
def stepE (cols rows : SN.Idx → BitVec 32) (vals : SN.Idx → EReal) (R : SX.Idx → EReal) : SX.Idx → EReal :=
  fun j => 0 + ∑ n ∈ Finset.univ.filter (fun n : SN.Idx => land (rows n) = some (j 1)), R (ix2 (j 0) (clampG (cols n))) * vals n

/-- The product of two 2048×2048 matrices. -/
def mmE (A M : SW.Idx → EReal) : SW.Idx → EReal :=
  fun j => ∑ k : Fin 2048, A (ix2 (j 0) k) * M (ix2 k (j 1))

/-- The product of the input with a matrix, plus the bias along the rows. -/
def applyE (x : SX.Idx → EReal) (W : SW.Idx → EReal) (bias : SD.Idx → EReal) : SX.Idx → EReal :=
  fun j => (∑ k : Fin 2048, x (ix2 (j 0) k) * W (ix2 k (j 1))) + bias (ix1 (j 1))

/-- The same with the bias as the one-row matrix the kernel stages. -/
def applyE2 (x : SX.Idx → EReal) (W : SW.Idx → EReal) (brow : (⟨2, ![1, 2048]⟩ : Shape).Idx → EReal) : SX.Idx → EReal :=
  fun j => (∑ k : Fin 2048, x (ix2 (j 0) k) * W (ix2 k (j 1))) + brow (ix2 0 (j 1))

/-- The kernel's result: the three dense transposes multiplied together first (matrix 2, then 1, then 0), then
    applied to the input, plus the bias. -/
def kerE (x : SX.Idx → EReal) (c0 r0 : SN.Idx → BitVec 32) (v0 : SN.Idx → EReal) (c1 r1 : SN.Idx → BitVec 32) (v1 : SN.Idx → EReal)
    (c2 r2 : SN.Idx → BitVec 32) (v2 : SN.Idx → EReal) (bias : SD.Idx → EReal) : SX.Idx → EReal :=
  applyE x (mmE (mmE (denseE c2 r2 v2) (denseE c1 r1 v1)) (denseE c0 r0 v0)) bias

/-- The reference's result: three steps (matrix 2, then 1, then 0), plus the bias. -/
def refE (x : SX.Idx → EReal) (c0 r0 : SN.Idx → BitVec 32) (v0 : SN.Idx → EReal) (c1 r1 : SN.Idx → BitVec 32) (v1 : SN.Idx → EReal)
    (c2 r2 : SN.Idx → BitVec 32) (v2 : SN.Idx → EReal) (bias : SD.Idx → EReal) : SX.Idx → EReal :=
  fun j => stepE c0 r0 v0 (stepE c1 r1 v1 (stepE c2 r2 v2 x)) j + bias (ix1 (j 1))

end Cert.Val

end
-- ==== Proof.ValCombine0.lean ====
/- What region 0 leaves in its output array, at the ideal instance: the product of the two matrices it stages,
   entry by entry. The accumulator after the last of a block's four contraction steps holds the sum of the four block
   products; its write-backs tile the array. -/
import proofs.«409374_j40931038331448_3_alg».proof.Proof.KernelIdealCombine0
import proofs.«409374_j40931038331448_3_alg».proof.Proof.ValueDefs
import Idealize.ShloMosaic.Lib.Pipeline.Value
import Idealize.ShloMosaic.Lib.ValueIdx
import Idealize.ShloMosaic.PureOps.Ideal.Laws

set_option maxRecDepth 16384

noncomputable section

namespace Cert.KernelIdeal.ValP

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open scoped BigOperators

theorem k0_dot_lhs_0 (j : S512x512.Idx) (k : dot_S512x512_S512x512_S512x512_1_0_0_1_n_n.contr.Idx) :
    (dot_S512x512_S512x512_S512x512_1_0_0_1_n_n.lhsIdx j k 0 : ℕ) = j 0 := by
  simp [DotDims.lhsIdx, dot_S512x512_S512x512_S512x512_1_0_0_1_n_n]; rfl
theorem k0_dot_lhs_1 (j : S512x512.Idx) (k : dot_S512x512_S512x512_S512x512_1_0_0_1_n_n.contr.Idx) :
    (dot_S512x512_S512x512_S512x512_1_0_0_1_n_n.lhsIdx j k 1 : ℕ) = k ⟨0, by decide⟩ := by
  simp [DotDims.lhsIdx, dot_S512x512_S512x512_S512x512_1_0_0_1_n_n]; rfl
theorem k0_dot_rhs_0 (j : S512x512.Idx) (k : dot_S512x512_S512x512_S512x512_1_0_0_1_n_n.contr.Idx) :
    (dot_S512x512_S512x512_S512x512_1_0_0_1_n_n.rhsIdx j k 0 : ℕ) = k ⟨0, by decide⟩ := by
  simp [DotDims.rhsIdx, dot_S512x512_S512x512_S512x512_1_0_0_1_n_n]; rfl
theorem k0_dot_rhs_1 (j : S512x512.Idx) (k : dot_S512x512_S512x512_S512x512_1_0_0_1_n_n.contr.Idx) :
    (dot_S512x512_S512x512_S512x512_1_0_0_1_n_n.rhsIdx j k 1 : ℕ) = j 1 := by
  simp [DotDims.rhsIdx, dot_S512x512_S512x512_S512x512_1_0_0_1_n_n]; rfl

theorem k0_pay1_apply (p q : Fin 512) : (k0_pay1 (F := Ideal)) (ix2 p q) = 0 := by
  unfold k0_pay1
  simp only [shapeCast_self]
  exact Ideal.ofBits_zero_f32

theorem k0_pay2_apply (acc : Vec Ideal S512x512 .f32) (a b : Vec Ideal S512x512 .bf16) (p q : Fin 512) :
    k0_pay2 acc a b (ix2 p q) = acc (ix2 p q) + ∑ k : Fin 512, a (ix2 p k) * b (ix2 k q) := by
  unfold k0_pay2
  simp only [shapeCast_self]
  show acc (ix2 p q) + matmul (F := Ideal) dot_S512x512_S512x512_S512x512_1_0_0_1_n_n none a b (constant (F := Ideal) S512x512 .f32 0x00000000#32) (ix2 p q) = _
  congr 1
  refine (Ideal.matmul_constant_zero_apply (φ₁ := .bf16) (φ₂ := .bf16) dot_S512x512_S512x512_S512x512_1_0_0_1_n_n none a b (ix2 p q)).trans ?_
  rw [← Equiv.sum_comp (contrEquiv1 dot_S512x512_S512x512_S512x512_1_0_0_1_n_n 512 rfl rfl).symm]
  refine Finset.sum_congr rfl fun k _ => ?_
  have ck := contrEquiv1_symm_val dot_S512x512_S512x512_S512x512_1_0_0_1_n_n 512 rfl rfl k
  have hl : dot_S512x512_S512x512_S512x512_1_0_0_1_n_n.lhsIdx (ix2 p q) ((contrEquiv1 _ 512 rfl rfl).symm k) = ix2 p k := by
    funext ax; apply Fin.ext
    match ax with
    | ⟨0, _⟩ => exact k0_dot_lhs_0 _ _
    | ⟨1, _⟩ => exact (k0_dot_lhs_1 _ _).trans ck
  have hr : dot_S512x512_S512x512_S512x512_1_0_0_1_n_n.rhsIdx (ix2 p q) ((contrEquiv1 _ 512 rfl rfl).symm k) = ix2 k q := by
    funext ax; apply Fin.ext
    match ax with
    | ⟨0, _⟩ => exact (k0_dot_rhs_0 _ _).trans ck
    | ⟨1, _⟩ => exact k0_dot_rhs_1 _ _
  rw [hl, hr]

/-- The sum over the contraction axis splits into its four blocks of 512. -/
theorem k0_sum_blocks (f : Fin 2048 → EReal) :
    ∑ k : Fin 2048, f k
      = ∑ kk : Fin 4, ∑ k : Fin 512, f ⟨512 * kk.val + k.val, by have := kk.isLt; have := k.isLt; omega⟩ := by
  have e := Equiv.sum_comp (finProdFinEquiv (m := 4) (n := 512)) (fun x : Fin (4 * 512) => f x)
  rw [Fintype.sum_prod_type] at e
  refine e.symm.trans ?_
  refine Finset.sum_congr rfl fun kk _ => Finset.sum_congr rfl fun k _ => congrArg f (Fin.ext ?_)
  show k.val + 512 * kk.val = 512 * kk.val + k.val
  omega

variable (V : (c : Dev nD) → (b : Ref sig .tc) → Buf (Elt Ideal) ((c : Thread nD τ).loc b))

/-- The block indices of the three windows at a point: the point's coordinates (i, j, k), k running fastest. -/
theorem win0_idx : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

theorem k0_lt (t : Fin cfg0.N) : t.val < 64 :=
  lt_of_lt_of_le t.isLt (le_of_eq (show cfg0.N = 64 from N_0))

/-- The two staged blocks at a point and the two arrays they are cut from, at their literal types. -/
abbrev k0_lhs (c : Dev nD) (t : Fin cfg0.N) : Vec Ideal S512x512 .bf16 := iblk0 (F := Ideal) V c 0 t
abbrev k0_rhs (c : Dev nD) (t : Fin cfg0.N) : Vec Ideal S512x512 .bf16 := iblk0 (F := Ideal) V c 1 t
abbrev k0_A (c : Dev nD) : S2048x2048.Idx → EReal := V c main_v15
abbrev k0_M (c : Dev nD) : S2048x2048.Idx → EReal := V c main_v31

/-- The left block at point (i, j, k) is rows 512 i … and columns 512 k … of the left array. -/
theorem k0_lhs_apply (c : Dev nD) (t : Fin cfg0.N) (p k : Fin 512) (r s : Fin 2048)
    (hr : r.val = 512 * (t.val / 16) + p.val) (hs : s.val = 512 * (t.val % 4) + k.val) :
    k0_lhs V c t (ix2 p k) = k0_A V c (ix2 r s) := by
  obtain ⟨e0, e1, e2, e3, e4, e5⟩ := win0_idx t
  show V c main_v15 (((cfg0.win 0).blk t).view.emb (ix2 p k)) = V c main_v15 (ix2 r s)
  refine congrArg (V c main_v15) ?_
  funext a; apply Fin.ext
  match a with
  | ⟨0, _⟩ => show win0_0.index t (0 : Fin 2) * 512 + 1 * p.val = r.val; omega
  | ⟨1, _⟩ => show win0_0.index t (1 : Fin 2) * 512 + 1 * k.val = s.val; omega

/-- The right block at point (i, j, k) is rows 512 k … and columns 512 j … of the right array. -/
theorem k0_rhs_apply (c : Dev nD) (t : Fin cfg0.N) (k q : Fin 512) (r s : Fin 2048)
    (hr : r.val = 512 * (t.val % 4) + k.val) (hs : s.val = 512 * (t.val / 4 % 4) + q.val) :
    k0_rhs V c t (ix2 k q) = k0_M V c (ix2 r s) := by
  obtain ⟨e0, e1, e2, e3, e4, e5⟩ := win0_idx t
  show V c main_v31 (((cfg0.win 1).blk t).view.emb (ix2 k q)) = V c main_v31 (ix2 r s)
  refine congrArg (V c main_v31) ?_
  funext a; apply Fin.ext
  match a with
  | ⟨0, _⟩ => show win0_1.index t (0 : Fin 2) * 512 + 1 * k.val = r.val; omega
  | ⟨1, _⟩ => show win0_1.index t (1 : Fin 2) * 512 + 1 * q.val = s.val; omega

/-- The product of the two blocks staged at a point, at an entry. -/
def k0_blk (c : Dev nD) (t : Fin cfg0.N) (p q : Fin 512) : EReal :=
  ∑ k : Fin 512, k0_lhs V c t (ix2 p k) * k0_rhs V c t (ix2 k q)

/-- It is the part of the full contraction over the point's block of 512 columns. -/
theorem k0_blk_eq (c : Dev nD) (t : Fin cfg0.N) (p q : Fin 512) (r s : Fin 2048) (kk : Fin 4)
    (hr : r.val = 512 * (t.val / 16) + p.val) (hs : s.val = 512 * (t.val / 4 % 4) + q.val) (hk : t.val % 4 = kk.val) :
    k0_blk V c t p q
      = ∑ k : Fin 512, k0_A V c (ix2 r ⟨512 * kk.val + k.val, by have := kk.isLt; have := k.isLt; omega⟩)
          * k0_M V c (ix2 ⟨512 * kk.val + k.val, by have := kk.isLt; have := k.isLt; omega⟩ s) := by
  unfold k0_blk
  refine Finset.sum_congr rfl fun k _ => ?_
  rw [k0_lhs_apply V c t p k r ⟨512 * kk.val + k.val, by have := kk.isLt; have := k.isLt; omega⟩ hr (by show 512 * kk.val + k.val = _; omega),
    k0_rhs_apply V c t k q ⟨512 * kk.val + k.val, by have := kk.isLt; have := k.isLt; omega⟩ s (by show 512 * kk.val + k.val = _; omega) hs]

/-- The accumulator at an entry: at the first contraction step the block product, -/
theorem accAt0_first_apply (c : Dev nD) (t : Fin cfg0.N) (h : t.val % 4 = 0) (p q : Fin 512) :
    accAt0 (F := Ideal) V c t.val t.isLt (ix2 p q) = k0_blk V c t p q := by
  refine (congrFun (accAt0_first (F := Ideal) V c t h) (ix2 p q)).trans ?_
  refine (k0_pay2_apply (k0_pay1 (F := Ideal)) (k0_lhs V c t) (k0_rhs V c t) p q).trans ?_
  rw [k0_pay1_apply, zero_add]
  rfl

/-- at a later one what the point before left plus the block product. -/
theorem accAt0_succ_apply (c : Dev nD) (n : ℕ) (h : n + 1 < cfg0.N) (hm : ¬(n + 1) % 4 = 0) (p q : Fin 512) :
    accAt0 (F := Ideal) V c (n + 1) h (ix2 p q)
      = accAt0 (F := Ideal) V c n (Nat.lt_of_succ_lt h) (ix2 p q) + k0_blk V c ⟨n + 1, h⟩ p q := by
  refine (congrFun (accAt0_later (F := Ideal) V c ⟨n + 1, h⟩ hm) (ix2 p q)).trans ?_
  exact k0_pay2_apply (accAt0 (F := Ideal) V c n (Nat.lt_of_succ_lt h)) (k0_lhs V c ⟨n + 1, h⟩) (k0_rhs V c ⟨n + 1, h⟩) p q

/-- After the last of a block's four contraction steps the accumulator holds the full contraction. -/
theorem accAt0_last_apply (c : Dev nD) (t : Fin cfg0.N) (h3 : t.val % 4 = 3) (p q : Fin 512) (r s : Fin 2048)
    (hr : r.val = 512 * (t.val / 16) + p.val) (hs : s.val = 512 * (t.val / 4 % 4) + q.val) :
    accAt0 (F := Ideal) V c t.val t.isLt (ix2 p q) = ∑ k : Fin 2048, k0_A V c (ix2 r k) * k0_M V c (ix2 k s) := by
  have hlt := k0_lt t
  obtain ⟨n, hn⟩ : ∃ n, t.val = n + 1 + 1 + 1 := ⟨t.val - 3, by omega⟩
  obtain ⟨tv, htlt⟩ := t
  dsimp only at hn h3 hr hs hlt ⊢
  subst hn
  have hN : cfg0.N = 64 := N_0
  have h2 : n + 1 + 1 < cfg0.N := Nat.lt_of_succ_lt htlt
  have h1 : n + 1 < cfg0.N := Nat.lt_of_succ_lt h2
  have h0 : n < cfg0.N := Nat.lt_of_succ_lt h1
  rw [accAt0_succ_apply V c (n + 1 + 1) htlt (by omega) p q, accAt0_succ_apply V c (n + 1) h2 (by omega) p q,
    accAt0_succ_apply V c n h1 (by omega) p q, accAt0_first_apply V c ⟨n, h0⟩ (by show n % 4 = 0; omega) p q,
    k0_blk_eq V c ⟨n, h0⟩ p q r s 0 (by show r.val = 512 * (n / 16) + p.val; omega) (by show s.val = 512 * (n / 4 % 4) + q.val; omega) (by show n % 4 = 0; omega),
    k0_blk_eq V c ⟨n + 1, h1⟩ p q r s 1 (by show r.val = 512 * ((n + 1) / 16) + p.val; omega) (by show s.val = 512 * ((n + 1) / 4 % 4) + q.val; omega) (by show (n + 1) % 4 = 1; omega),
    k0_blk_eq V c ⟨n + 1 + 1, h2⟩ p q r s 2 (by show r.val = 512 * ((n + 1 + 1) / 16) + p.val; omega) (by show s.val = 512 * ((n + 1 + 1) / 4 % 4) + q.val; omega) (by show (n + 1 + 1) % 4 = 2; omega),
    k0_blk_eq V c ⟨n + 1 + 1 + 1, htlt⟩ p q r s 3 (by show r.val = 512 * ((n + 1 + 1 + 1) / 16) + p.val; omega) (by show s.val = 512 * ((n + 1 + 1 + 1) / 4 % 4) + q.val; omega) (by show (n + 1 + 1 + 1) % 4 = 3; omega),
    k0_sum_blocks, Fin.sum_univ_four]

/-- What the last contraction step stores in the output's staging buffer, at an entry of the block: the product's
    entry where the output's rectangle puts it. -/
theorem k0_flush_val (c : Dev nD) (t : Fin cfg0.N) (h3 : t.val % 4 = 3) (y : S512x512.Idx) :
    k0_pay3 (accAt0 (F := Ideal) V c t.val t.isLt) y
      = Cert.Val.mmE (k0_A V c) (k0_M V c) (((cfg0.win 2).blk t).view.emb y) := by
  obtain ⟨p, q, rfl⟩ : ∃ (p q : Fin 512), y = ix2 p q := ⟨y 0, y 1, eq_ix2 y⟩
  have hlt := k0_lt t
  obtain ⟨e0, e1, e2, e3, e4, e5⟩ := win0_idx t
  have hj : ((cfg0.win 2).blk t).view.emb (ix2 p q)
      = (ix2 (⟨512 * (t.val / 16) + p.val, by have := p.isLt; omega⟩ : Fin 2048) (⟨512 * (t.val / 4 % 4) + q.val, by have := q.isLt; omega⟩ : Fin 2048) : S2048x2048.Idx) := by
    funext a; apply Fin.ext
    match a with
    | ⟨0, _⟩ => show win0_2.index t (0 : Fin 2) * 512 + 1 * p.val = 512 * (t.val / 16) + p.val; omega
    | ⟨1, _⟩ => show win0_2.index t (1 : Fin 2) * 512 + 1 * q.val = 512 * (t.val / 4 % 4) + q.val; omega
  refine Eq.trans ?_ (congrArg (Cert.Val.mmE (k0_A V c) (k0_M V c)) hj.symm)
  show accAt0 (F := Ideal) V c t.val t.isLt (ix2 p q) = ∑ k : Fin 2048, k0_A V c (ix2 _ k) * k0_M V c (ix2 k _)
  exact accAt0_last_apply V c t h3 p q _ _ rfl rfl

/-- What a write-back writes is the product's block. -/
theorem dat0_flushed_eq (c : Dev nD) (t : Fin cfg0.N) (hf : (cfg0.win 2).flush t = true) :
    (dat0 (F := Ideal) V c).flushed 2 t
      = ((cfg0.win 2).blk t).view.read (Elt Ideal) (Cert.Val.mmE (k0_A V c) (k0_M V c)) := by
  have h3 : t.val % 4 = 3 := (flush0_2 t).mp hf
  show (cfg0.win 2).cut (cfg0.grid.coords t) ((dat0 (F := Ideal) V c).after 2 t) = _
  rw [after0_2]
  funext y
  exact k0_flush_val V c t h3 y

/-- An entry of the output array is in a point's block iff each coordinate is in the block's range. -/
theorem win0_mem_blk (t : Fin cfg0.N) (i : S2048x2048.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v48).slice (win0_2.rect t)).set ↔ _
  rw [View.set_slice_whole, Rect.mem_set_unit]
  exact Iff.rfl

/-- Every entry is in the block of the last contraction step of its block row and block column. -/
theorem win0_cover (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  have hN : cfg0.N = 64 := N_0
  refine ⟨⟨(i 0).val / 512 * 16 + (i 1).val / 512 * 4 + 3, by omega⟩, (flush0_2 _).mpr (by show ((i 0).val / 512 * 16 + (i 1).val / 512 * 4 + 3) % 4 = 3; omega), ?_⟩
  obtain ⟨e0, e1, e2, e3, e4, e5⟩ := win0_idx ⟨(i 0).val / 512 * 16 + (i 1).val / 512 * 4 + 3, by omega⟩
  dsimp only at e4 e5
  rw [win0_mem_blk]
  intro a
  match a with
  | ⟨0, _⟩ => show win0_2.index _ (0 : Fin 2) * 512 ≤ (i 0).val ∧ (i 0).val < win0_2.index _ (0 : Fin 2) * 512 + 512; rw [e4]; omega
  | ⟨1, _⟩ => show win0_2.index _ (1 : Fin 2) * 512 ≤ (i 1).val ∧ (i 1).val < win0_2.index _ (1 : Fin 2) * 512 + 512; rw [e5]; omega

/-- Region 0's output array after the region: the product of its two input arrays (the first two dense weight
    matrices), entry by entry. -/
theorem arrAt0_eq (c : Dev nD) :
    ((dat0 (F := Ideal) V c).arrAt 2 cfg0.N : S2048x2048.Idx → EReal)
      = Cert.Val.mmE (V c main_v15 : S2048x2048.Idx → EReal) (V c main_v31 : S2048x2048.Idx → EReal) :=
  (dat0 (F := Ideal) V c).arrAt_eq_of_cover 2 (Cert.Val.mmE (k0_A V c) (k0_M V c)) (fun t hf => dat0_flushed_eq V c t hf) win0_cover

end Cert.KernelIdeal.ValP

end
-- ==== Proof.ValFused2.lean ====
/- What region 2 leaves in its output array, at the ideal instance: the input times the combined weight matrix
   plus the bias row, entry by entry. Each grid point writes one block of 512 rows; the blocks tile the array. -/
import proofs.«409374_j40931038331448_3_alg».proof.Proof.KernelIdealFused2
import proofs.«409374_j40931038331448_3_alg».proof.Proof.ValueDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ValP

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open scoped BigOperators

/-! ## The body's payload at an index -/

/-- The product's left operand at result index `j` and contraction index `k` keeps `j`'s row, -/
theorem lhs_dot2_0 (j : S512x2048.Idx) (k : dot_S512x2048_S2048x2048_S512x2048_1_0_0_1_n_n.contr.Idx) :
    (dot_S512x2048_S2048x2048_S512x2048_1_0_0_1_n_n.lhsIdx j k 0).val = (j 0).val := rfl

/-- and has the contraction index as its column; -/
theorem lhs_dot2_1 (j : S512x2048.Idx) (k : dot_S512x2048_S2048x2048_S512x2048_1_0_0_1_n_n.contr.Idx) :
    (dot_S512x2048_S2048x2048_S512x2048_1_0_0_1_n_n.lhsIdx j k 1).val = (k ⟨0, by decide⟩).val :=
  dot_S512x2048_S2048x2048_S512x2048_1_0_0_1_n_n.lhsIdx_val_of_single (cl := 1) rfl j k

/-- the right operand has the contraction index as its row -/
theorem rhs_dot2_0 (j : S512x2048.Idx) (k : dot_S512x2048_S2048x2048_S512x2048_1_0_0_1_n_n.contr.Idx) :
    (dot_S512x2048_S2048x2048_S512x2048_1_0_0_1_n_n.rhsIdx j k 0).val = (k ⟨0, by decide⟩).val :=
  dot_S512x2048_S2048x2048_S512x2048_1_0_0_1_n_n.rhsIdx_val_of_single (cr := 0) rfl j k

/-- and keeps `j`'s column. -/
theorem rhs_dot2_1 (j : S512x2048.Idx) (k : dot_S512x2048_S2048x2048_S512x2048_1_0_0_1_n_n.contr.Idx) :
    (dot_S512x2048_S2048x2048_S512x2048_1_0_0_1_n_n.rhsIdx j k 1).val = (j 1).val := rfl

/-- The block product into the zero block, read at `(p, q)`: row `p` of the left operand against column `q` of the
    right one, summed over the 2048 contracted positions. -/
theorem matmul2_apply (a : FVec Ideal S512x2048 .bf16) (b : FVec Ideal S2048x2048 .bf16) (p : Fin 512) (q : Fin 2048) :
    matmul dot_S512x2048_S2048x2048_S512x2048_1_0_0_1_n_n none a b (constant (F := Ideal) S512x2048 .f32 0x00000000#32) (ix2 p q)
      = ∑ k : Fin 2048, a (ix2 p k) * b (ix2 k q) := by
  show FloatOps.matmul dot_S512x2048_S2048x2048_S512x2048_1_0_0_1_n_n none a b _ (ix2 p q) = _
  rw [Ideal.matmul_constant_zero_apply,
    ← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have hl : dot_S512x2048_S2048x2048_S512x2048_1_0_0_1_n_n.lhsIdx (ix2 p q)
      ((contrEquiv1 dot_S512x2048_S2048x2048_S512x2048_1_0_0_1_n_n 2048 rfl rfl).symm k) = ix2 p k := by
    funext ax; apply Fin.ext
    match ax with
    | ⟨0, _⟩ => exact lhs_dot2_0 _ _
    | ⟨1, _⟩ => exact (lhs_dot2_1 _ _).trans hk
  have hr : dot_S512x2048_S2048x2048_S512x2048_1_0_0_1_n_n.rhsIdx (ix2 p q)
      ((contrEquiv1 dot_S512x2048_S2048x2048_S512x2048_1_0_0_1_n_n 2048 rfl rfl).symm k) = ix2 k q := by
    funext ax; apply Fin.ext
    match ax with
    | ⟨0, _⟩ => exact (rhs_dot2_0 _ _).trans hk
    | ⟨1, _⟩ => exact rhs_dot2_1 _ _
  rw [hl, hr]

/-- The payload at `(p, q)`: row `p` of the input block against column `q` of the weight matrix, plus the bias
    row at `q`. At the ideal values the narrowing of the input block changes nothing. -/
theorem pay2_apply (x0 : Vec Ideal S512x2048 .f32) (x1 : Vec Ideal S2048x2048 .bf16) (x2 : Vec Ideal S1x2048 .f32)
    (p : Fin 512) (q : Fin 2048) :
    k2_pay1 x0 x1 x2 (ix2 p q) = (∑ k : Fin 2048, x0 (ix2 p k) * x1 (ix2 k q)) + x2 (ix2 0 q) := by
  unfold k2_pay1
  have e1 : shapeCast S2048x2048 x1 shapeCasts_S2048x2048_S2048x2048 = x1 := shapeCast_self _ _
  have e2 : shapeCast S1x2048 x2 shapeCasts_S1x2048_S1x2048 = x2 := shapeCast_self _ _
  refine (addf_apply _ _ _).trans ?_
  refine congrArg₂ (· + ·) ?_ ?_
  · refine (matmul2_apply _ _ p q).trans (Finset.sum_congr rfl fun k _ => ?_)
    exact congrArg (x0 (ix2 p k) * ·) (congrFun e1 (ix2 k q))
  · refine (broadcastTo_1b_ab_apply _ _ p q).trans ?_
    exact congrFun e2 (ix2 0 q)

/-! ## The blocks, read off the arrays -/

variable (V : (c : Dev nD) → (b : Ref sig .tc) → Buf (Elt Ideal) ((c : Thread nD τ).loc b))

/-- The block indices over the grid: the input's and the output's block is the point's on the rows and the only one
    on the columns; the weight matrix's and the bias row's one block never moves. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input's block at point `t` is rows `512 t` to `512 t + 511` of the input. -/
theorem xblk_apply (c : Dev nD) (t : Fin cfg2.N) (p : Fin 512) (k : Fin 2048) (r : Fin 4096)
    (hr : r.val = 512 * t.val + p.val) :
    (iblk2 (F := Ideal) V c 0 t : Vec Ideal S512x2048 .f32) (ix2 p k)
      = (V c main_arg0 : S4096x2048.Idx → EReal) (ix2 r k) := by
  obtain ⟨e0, e1, -⟩ := idx_facts2 t
  show (V c main_arg0 : S4096x2048.Idx → EReal) (((cfg2.win 0).blk t).view.emb (ix2 p k)) = _
  refine congrArg (V c main_arg0 : S4096x2048.Idx → EReal) (funext fun a => Fin.ext ?_)
  match a with
  | ⟨0, _⟩ => show win2_0.index t (0 : Fin 2) * 512 + 1 * p.val = r.val; omega
  | ⟨1, _⟩ => show win2_0.index t (1 : Fin 2) * 2048 + 1 * k.val = k.val; omega

/-- The weight matrix's block at any point is the whole matrix. -/
theorem wblk_apply (c : Dev nD) (t : Fin cfg2.N) (k q : Fin 2048) :
    (iblk2 (F := Ideal) V c 1 t : Vec Ideal S2048x2048 .bf16) (ix2 k q)
      = (V c main_v49 : S2048x2048.Idx → EReal) (ix2 k q) := by
  obtain ⟨-, -, e2, e3, -⟩ := idx_facts2 t
  show (V c main_v49 : S2048x2048.Idx → EReal) (((cfg2.win 1).blk t).view.emb (ix2 k q)) = _
  refine congrArg (V c main_v49 : S2048x2048.Idx → EReal) (funext fun a => Fin.ext ?_)
  match a with
  | ⟨0, _⟩ => show win2_1.index t (0 : Fin 2) * 2048 + 1 * k.val = k.val; omega
  | ⟨1, _⟩ => show win2_1.index t (1 : Fin 2) * 2048 + 1 * q.val = q.val; omega

/-- The bias row's block at any point is the whole row. -/
theorem bblk_apply (c : Dev nD) (t : Fin cfg2.N) (q : Fin 2048) :
    (iblk2 (F := Ideal) V c 2 t : Vec Ideal S1x2048 .f32) (ix2 (0 : Fin 1) q)
      = (V c main_v50 : S1x2048.Idx → EReal) (ix2 (0 : Fin 1) q) := by
  obtain ⟨-, -, -, -, e4, e5, -⟩ := idx_facts2 t
  show (V c main_v50 : S1x2048.Idx → EReal) (((cfg2.win 2).blk t).view.emb (ix2 (0 : Fin 1) q)) = _
  refine congrArg (V c main_v50 : S1x2048.Idx → EReal) (funext fun a => Fin.ext ?_)
  match a with
  | ⟨0, _⟩ => show win2_2.index t (0 : Fin 2) * 1 + 1 * 0 = 0; omega
  | ⟨1, _⟩ => show win2_2.index t (1 : Fin 2) * 2048 + 1 * q.val = q.val; omega

/-- Where the output's block at point `t` lies in the output array: entry `(p, q)` of the block is entry
    `(512 t + p, q)` of the array. -/
theorem oblk_emb (t : Fin cfg2.N) (p : Fin 512) (q : Fin 2048) (r : Fin 4096) (hr : r.val = 512 * t.val + p.val) :
    (((cfg2.win 3).blk t).view.emb (ix2 p q) : S4096x2048.Idx) = ix2 r q := by
  obtain ⟨-, -, -, -, -, -, e6, e7⟩ := idx_facts2 t
  refine funext fun a => Fin.ext ?_
  match a with
  | ⟨0, _⟩ => show win2_3.index t (0 : Fin 2) * 512 + 1 * p.val = r.val; omega
  | ⟨1, _⟩ => show win2_3.index t (1 : Fin 2) * 2048 + 1 * q.val = q.val; omega

/-- The specification at an entry. -/
theorem applyE2_ix2 (x : Cert.Val.SX.Idx → EReal) (W : Cert.Val.SW.Idx → EReal)
    (b : (⟨2, ![1, 2048]⟩ : Shape).Idx → EReal) (r : Fin 4096) (q : Fin 2048) :
    Cert.Val.applyE2 x W b (ix2 r q) = (∑ k : Fin 2048, x (ix2 r k) * W (ix2 k q)) + b (ix2 (0 : Fin 1) q) := rfl

/-! ## From the blocks to the array -/

/-- What point `t` writes back is block `t` of the product plus the bias row. -/
theorem flushed2_3_eq (c : Dev nD) (t : Fin cfg2.N) :
    (dat2 (F := Ideal) V c).flushed 3 t
      = ((cfg2.win 3).blk t).view.read (Elt Ideal)
          (Cert.Val.applyE2 (V c main_arg0) (V c main_v49) (V c main_v50)) := by
  have hN : grid2.N = 8 := N_2
  have ht : t.val < 8 := hN ▸ t.isLt
  show (cfg2.win 3).cut (grid2.coords t) ((dat2 (F := Ideal) V c).after 3 t) = _
  rw [after2_3]
  refine funext fun (j : S512x2048.Idx) => ?_
  obtain ⟨p, q, rfl⟩ : ∃ (p : Fin 512) (q : Fin 2048), j = ix2 p q := ⟨j 0, j 1, eq_ix2 j⟩
  have hp : p.val < 512 := p.isLt
  show k2_pay1 (iblk2 (F := Ideal) V c 0 t) (iblk2 (F := Ideal) V c 1 t) (iblk2 (F := Ideal) V c 2 t) (ix2 p q)
    = Cert.Val.applyE2 (V c main_arg0) (V c main_v49) (V c main_v50) (((cfg2.win 3).blk t).view.emb (ix2 p q))
  rw [oblk_emb t p q ⟨512 * t.val + p.val, by omega⟩ rfl]
  refine (pay2_apply (iblk2 (F := Ideal) V c 0 t) (iblk2 (F := Ideal) V c 1 t) (iblk2 (F := Ideal) V c 2 t) p q).trans ?_
  refine Eq.trans ?_ (applyE2_ix2 (V c main_arg0) (V c main_v49) (V c main_v50) ⟨512 * t.val + p.val, by omega⟩ q).symm
  refine congrArg₂ (· + ·) (Finset.sum_congr rfl fun k _ => congrArg₂ (· * ·) ?_ ?_) ?_
  · exact xblk_apply V c t p k _ rfl
  · exact wblk_apply V c t k q
  · exact bblk_apply V c t q

/-- An index of the output array is in point `t`'s block iff each coordinate is in the block's range on its axis. -/
theorem mem_blk2_3 (t : Fin cfg2.N) (i : S4096x2048.Idx) :
    i ∈ ((cfg2.win 3).blk t).view.set ↔ ∀ a : Fin 2, win2_3.index t a * S512x2048.size a ≤ (i a).val
      ∧ (i a).val < win2_3.index t a * S512x2048.size a + S512x2048.size a := by
  show i ∈ ((View.whole main_v51).slice (win2_3.rect t)).set ↔ _
  rw [View.set_slice_whole, Rect.mem_set_unit]
  exact Iff.rfl

/-- The eight blocks tile the array: row `r` is in the block of point `r / 512`. -/
theorem cover2_3 (i : S4096x2048.Idx) :
    ∃ t : Fin cfg2.N, (cfg2.win 3).flush t = true ∧ i ∈ ((cfg2.win 3).blk t).view.set := by
  have hN : grid2.N = 8 := N_2
  have hi0 : (i 0).val < 4096 := (i 0).isLt
  have hi1 : (i 1).val < 2048 := (i 1).isLt
  have htl : (i 0).val / 512 < grid2.N := by rw [hN]; omega
  obtain ⟨-, -, -, -, -, -, e6, e7⟩ := idx_facts2 ⟨(i 0).val / 512, htl⟩
  have e6' : win2_3.index ⟨(i 0).val / 512, htl⟩ (0 : Fin 2) = (i 0).val / 512 := e6
  refine ⟨⟨(i 0).val / 512, htl⟩, flush2_3 _, ?_⟩
  rw [mem_blk2_3]
  intro a
  match a with
  | ⟨0, _⟩ =>
    show win2_3.index ⟨(i 0).val / 512, htl⟩ (0 : Fin 2) * 512 ≤ (i 0).val
      ∧ (i 0).val < win2_3.index ⟨(i 0).val / 512, htl⟩ (0 : Fin 2) * 512 + 512
    omega
  | ⟨1, _⟩ =>
    show win2_3.index ⟨(i 0).val / 512, htl⟩ (1 : Fin 2) * 2048 ≤ (i 1).val
      ∧ (i 1).val < win2_3.index ⟨(i 0).val / 512, htl⟩ (1 : Fin 2) * 2048 + 2048
    omega

/-- Region 2's output array after the region: the input times the weight matrix plus the bias row. -/
theorem arrAt2_eq (c : Dev nD) :
    ((dat2 (F := Ideal) V c).arrAt 3 cfg2.N : S4096x2048.Idx → EReal)
      = Cert.Val.applyE2 (V c main_arg0) (V c main_v49) (V c main_v50) :=
  (dat2 (F := Ideal) V c).arrAt_eq_of_cover 3 (Cert.Val.applyE2 (V c main_arg0) (V c main_v49) (V c main_v50))
    (fun t _ => flushed2_3_eq V c t) cover2_3

end Cert.KernelIdeal.ValP

end
-- ==== Proof.ValHost.lean ====
/- The buffer contents the kernel's regions are entered from, at the ideal instance, as functions of the argument
   arrays: the three dense weight matrices the host operations build by scatter-add (a change of float format is the
   identity), what each region hands the next, and the bias as a one-row matrix. -/
import proofs.«409374_j40931038331448_3_alg».proof.Proof.KernelIdealStates
import proofs.«409374_j40931038331448_3_alg».proof.Proof.KernelIdealRegions
import proofs.«409374_j40931038331448_3_alg».proof.Proof.ValueDefs
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.ValP

open Cert.KernelIdeal Cert.KernelIdeal.Gen Cert.KernelIdeal.GenP Cert.Val
open Idealize.ShloMosaic Idealize.ShloMosaic.TcCoe Idealize.ShloMosaic.ValueIdx Idealize.SL.Sem
open Idealize.ShloMosaic.Pipeline (Dat)

/-- The scatter's dimension numbers: no window axes, both operand axes inserted, index vector along axis 1. -/
local notation "sd" => scatter_S2048x2048_S16384x2_S16384_n_01_01_1

/-- The scatter has no window axes: every window coordinate is 0. -/
theorem sd_window (u : S16384.Idx) : ∀ a : Fin 2, ScatterDims.window sd u a = 0
  | ⟨0, _⟩ => rfl
  | ⟨1, _⟩ => rfl

/-- The start on operand axis 0 is the index word at position 0 of the update's row, read signed. -/
theorem sd_start0 (n : Fin 16384) (idx : IVec S16384x2 32) :
    ScatterDims.start sd (ix1 n) idx 0 = (idx (ix2 n (0 : Fin 2))).toInt := by
  unfold ScatterDims.start
  refine (dif_pos (by decide)).trans ?_
  refine congrArg (fun k => (idx k).toInt) (funext fun b => Fin.ext ?_)
  match b with
  | ⟨0, _⟩ => rfl
  | ⟨1, _⟩ => rfl

/-- The start on operand axis 1 is the index word at position 1 of the update's row, read signed. -/
theorem sd_start1 (n : Fin 16384) (idx : IVec S16384x2 32) :
    ScatterDims.start sd (ix1 n) idx 1 = (idx (ix2 n (1 : Fin 2))).toInt := by
  unfold ScatterDims.start
  refine (dif_pos (by decide)).trans ?_
  refine congrArg (fun k => (idx k).toInt) (funext fun b => Fin.ext ?_)
  match b with
  | ⟨0, _⟩ => rfl
  | ⟨1, _⟩ => rfl

/-- A word lands at `k` exactly when its wrapped value, read signed, is in range and equals `k`. -/
theorem land_eq_some (w : BitVec 32) (k : Fin 2048) :
    land w = some k ↔ 0 ≤ (wrapW w).toInt ∧ (wrapW w).toInt < 2048 ∧ (wrapW w).toInt.toNat = k.val := by
  unfold land
  constructor
  · intro h
    split at h
    · next hc => exact ⟨hc.1, hc.2, congrArg Fin.val (Option.some.inj h)⟩
    · exact absurd h (by simp)
  · rintro ⟨h0, h1, h2⟩
    rw [dif_pos ⟨h0, h1⟩]
    exact congrArg some (Fin.ext h2)

/-- Where the scatter lands update `n`: at `j` exactly when both index words, read signed, are `j`'s coordinates. -/
theorem sd_resultIdx_eq_some (n : Fin 16384) (idx : IVec S16384x2 32) (j : S2048x2048.Idx) :
    ScatterDims.resultIdx? sd (ix1 n) idx = some j ↔
      (0 ≤ (idx (ix2 n (0 : Fin 2))).toInt ∧ (idx (ix2 n (0 : Fin 2))).toInt < 2048 ∧ (idx (ix2 n (0 : Fin 2))).toInt.toNat = (j 0).val) ∧
      (0 ≤ (idx (ix2 n (1 : Fin 2))).toInt ∧ (idx (ix2 n (1 : Fin 2))).toInt < 2048 ∧ (idx (ix2 n (1 : Fin 2))).toInt.toNat = (j 1).val) := by
  have hs0 : ScatterDims.start sd (ix1 n) idx 0 + (ScatterDims.window sd (ix1 n) 0 : ℤ) = (idx (ix2 n (0 : Fin 2))).toInt := by
    rw [sd_start0, sd_window]; simp
  have hs1 : ScatterDims.start sd (ix1 n) idx 1 + (ScatterDims.window sd (ix1 n) 1 : ℤ) = (idx (ix2 n (1 : Fin 2))).toInt := by
    rw [sd_start1, sd_window]; simp
  unfold ScatterDims.resultIdx?
  constructor
  · intro h
    split at h
    · next hall =>
      have hj := Option.some.inj h
      have c0 := hall 0
      have c1 := hall 1
      have j0 := congrArg Fin.val (congrFun hj 0)
      have j1 := congrArg Fin.val (congrFun hj 1)
      simp only at j0 j1
      rw [hs0] at c0 j0
      rw [hs1] at c1 j1
      exact ⟨⟨c0.1, c0.2, j0⟩, ⟨c1.1, c1.2, j1⟩⟩
    · exact absurd h (by simp)
  · rintro ⟨⟨a0, a1, a2⟩, ⟨b0, b1, b2⟩⟩
    have hall : ∀ a : Fin 2, 0 ≤ ScatterDims.start sd (ix1 n) idx a + (ScatterDims.window sd (ix1 n) a : ℤ) ∧
        ScatterDims.start sd (ix1 n) idx a + (ScatterDims.window sd (ix1 n) a : ℤ) < (S2048x2048.size a : ℤ) := by
      intro a
      match a with
      | ⟨0, _⟩ => exact ⟨hs0 ▸ a0, hs0 ▸ a1⟩
      | ⟨1, _⟩ => exact ⟨hs1 ▸ b0, hs1 ▸ b1⟩
    rw [dif_pos hall]
    refine congrArg some (funext fun a => Fin.ext ?_)
    match a with
    | ⟨0, _⟩ => exact (congrArg Int.toNat hs0).trans a2
    | ⟨1, _⟩ => exact (congrArg Int.toNat hs1).trans b2

/-- The wrapped index words of an array. -/
def wrapV (a : IVec S16384 32) : IVec S16384 32 :=
  select (cmpi .slt a (broadcastInDim S16384 ![] bcast_S_S16384 (constantI S_ 32 0#32)))
    (addi a (broadcastInDim S16384 ![] bcast_S_S16384 (constantI S_ 32 2048#32))) a

/-- Read at an index it is the wrapped word. -/
theorem wrapV_apply (a : IVec S16384 32) (i : S16384.Idx) : wrapV a i = wrapW (a i) := rfl

/-- The scatter's index array: the wrapped column word at position 0, the wrapped row word at position 1. -/
def idxV (cols rows : IVec S16384 32) : IVec S16384x2 32 :=
  concatenate S16384x2 1 [⟨S16384x1, broadcastInDim S16384x1 ![0] bcast_S16384_S16384x1_0 (wrapV cols)⟩,
    ⟨S16384x1, broadcastInDim S16384x1 ![0] bcast_S16384_S16384x1_0 (wrapV rows)⟩] concatenates_S16384x1_S16384x1_S16384x2_d1

/-- Position 0 of row `n` holds the wrapped column word. -/
theorem idxV_apply0 (cols rows : IVec S16384 32) (n : Fin 16384) :
    idxV cols rows (ix2 n (0 : Fin 2)) = wrapW (cols (ix1 n)) := by
  unfold idxV
  refine (concatenate_pair_apply_left (t := S16384x2) (s₁ := S16384x1) (s₂ := S16384x1) (1 : Fin 2) _ _ _ (ix2 n (0 : Fin 2)) rfl
    (ix2 (n0 := 16384) (n1 := 1) n (0 : Fin 1)) ?_).trans ?_
  · intro b
    match b with
    | ⟨0, _⟩ => rfl
    | ⟨1, _⟩ => rfl
  · refine (broadcastInDim_apply _ _ _ _ (ix1 n) ?_).trans rfl
    intro a
    match a with
    | ⟨0, _⟩ => rfl

/-- Position 1 of row `n` holds the wrapped row word. -/
theorem idxV_apply1 (cols rows : IVec S16384 32) (n : Fin 16384) :
    idxV cols rows (ix2 n (1 : Fin 2)) = wrapW (rows (ix1 n)) := by
  unfold idxV
  refine (concatenate_pair_apply_right (t := S16384x2) (s₁ := S16384x1) (s₂ := S16384x1) (1 : Fin 2) _ _ _ (ix2 n (1 : Fin 2)) rfl rfl
    (ix2 (n0 := 16384) (n1 := 1) n (0 : Fin 1)) ?_ rfl).trans ?_
  · intro b hb
    match b, hb with
    | ⟨0, _⟩, _ => rfl
    | ⟨1, _⟩, hb => exact absurd rfl hb
  · refine (broadcastInDim_apply _ _ _ _ (ix1 n) ?_).trans rfl
    intro a
    match a with
    | ⟨0, _⟩ => rfl

/-- The dense matrix as the host operations compute it. -/
def denseV (cols rows : IVec S16384 32) (vals : FVec Ideal S16384 .f32) : FVec Ideal S2048x2048 .bf16 :=
  truncf .bf16 (Host.scatterAdd sd (broadcastInDim S2048x2048 ![] bcast_S_S2048x2048 (constant (F := Ideal) S_ .f32 0x00000000#32))
    (idxV cols rows) vals) bitsLt_bf16_f32

/-- Read at an index it is zero plus the sum of the values whose column and row words land there. -/
theorem denseV_eq (cols rows : IVec S16384 32) (vals : FVec Ideal S16384 .f32) :
    (denseV cols rows vals : S2048x2048.Idx → EReal) = denseE cols rows vals := by
  funext j
  show Ideal.hostScatterAdd sd (broadcastInDim S2048x2048 ![] bcast_S_S2048x2048 (constant (F := Ideal) S_ .f32 0x00000000#32))
    (idxV cols rows) vals j = _
  unfold Ideal.hostScatterAdd denseE
  refine congrArg₂ (· + ·) ?_ (Finset.sum_congr (Finset.ext fun u => ?_) fun _ _ => rfl)
  · show Ideal.ofBits .f32 0x00000000#32 = 0
    exact Ideal.ofBits_zero_f32
  · simp only [Finset.mem_filter, Finset.mem_univ, true_and]
    obtain ⟨n, rfl⟩ : ∃ n : Fin 16384, u = ix1 n := ⟨u 0, eq_ix1 u⟩
    refine (sd_resultIdx_eq_some n _ j).trans ?_
    rw [idxV_apply0, idxV_apply1]
    exact and_congr (land_eq_some _ _).symm (land_eq_some _ _).symm

variable (m : (ℓ : Loc nD τ sig) → Buf (Elt Ideal) ℓ)

/-- The bias argument reaches the last host operation untouched. -/
theorem B3_arg10 (c : Dev nD) : B3 m c (Proc.devRef .tc main_arg10) = m ((c : Thread nD τ).loc main_arg10) :=
  (B3_of_ne m c main_arg10 (by decide)).trans <| (B2_of_ne m c main_arg10 (by decide)).trans <|
    (StableHlo.after_of_writes_sub hostOps0 _ hostOps0_writes (by decide)).trans rfl

/-- The first region's left factor: the dense transpose of sparse matrix 2. -/
theorem E1_v15 (c : Dev nD) :
    (E1 m c main_v15 : S2048x2048.Idx → EReal)
      = denseE (m ((c : Thread nD τ).loc main_arg8)) (m ((c : Thread nD τ).loc main_arg7)) (m ((c : Thread nD τ).loc main_arg9)) := by
  have e : (E1 m c main_v15 : S2048x2048.Idx → EReal)
      = denseV (m ((c : Thread nD τ).loc main_arg8)) (m ((c : Thread nD τ).loc main_arg7)) (m ((c : Thread nD τ).loc main_arg9)) := by
    show StableHlo.after hostOps0 (B0 m c) (Proc.devRef .tc main_v15) = _
    after_results_simp
    rfl
  rw [e]
  exact denseV_eq _ _ _
/-- Its right factor: the dense transpose of sparse matrix 1. -/
theorem E1_v31 (c : Dev nD) :
    (E1 m c main_v31 : S2048x2048.Idx → EReal)
      = denseE (m ((c : Thread nD τ).loc main_arg5)) (m ((c : Thread nD τ).loc main_arg4)) (m ((c : Thread nD τ).loc main_arg6)) := by
  have e : (E1 m c main_v31 : S2048x2048.Idx → EReal)
      = denseV (m ((c : Thread nD τ).loc main_arg5)) (m ((c : Thread nD τ).loc main_arg4)) (m ((c : Thread nD τ).loc main_arg6)) := by
    show StableHlo.after hostOps0 (B0 m c) (Proc.devRef .tc main_v31) = _
    after_results_simp
    rfl
  rw [e]
  exact denseV_eq _ _ _
/-- The dense transpose of sparse matrix 0, built before the first region and read by the second. -/
theorem E1_v47 (c : Dev nD) :
    (E1 m c main_v47 : S2048x2048.Idx → EReal)
      = denseE (m ((c : Thread nD τ).loc main_arg2)) (m ((c : Thread nD τ).loc main_arg1)) (m ((c : Thread nD τ).loc main_arg3)) := by
  have e : (E1 m c main_v47 : S2048x2048.Idx → EReal)
      = denseV (m ((c : Thread nD τ).loc main_arg2)) (m ((c : Thread nD τ).loc main_arg1)) (m ((c : Thread nD τ).loc main_arg3)) := by
    show StableHlo.after hostOps0 (B0 m c) (Proc.devRef .tc main_v47) = _
    after_results_simp
    rfl
  rw [e]
  exact denseV_eq _ _ _
/-- The second region's left factor is what the first region left in its output array. -/
theorem E2_v48 (c : Dev nD) : E2 m c main_v48 = (dat0 (E1 m) c).arrAt 2 cfg0.N :=
  B2_arr m c 2
/-- Its right factor is untouched by the first region. -/
theorem E2_v47 (c : Dev nD) : E2 m c main_v47 = E1 m c main_v47 :=
  B2_of_ne m c main_v47 (by decide)
/-- The last region's weight matrix is what the second region left in its output array. -/
theorem E4_v49 (c : Dev nD) : E4 m c main_v49 = (dat1 (E2 m) c).arrAt 2 cfg1.N :=
  (StableHlo.after_of_writes_sub hostOps2 _ hostOps2_writes (by decide)).trans (B3_arr m c 2)
/-- Its input is the argument array, untouched. -/
theorem E4_arg0 (c : Dev nD) : E4 m c main_arg0 = m ((c : Thread nD τ).loc main_arg0) :=
  (StableHlo.after_of_writes_sub hostOps2 _ hostOps2_writes (by decide)).trans <|
    (B3_of_ne m c main_arg0 (by decide)).trans <| (B2_of_ne m c main_arg0 (by decide)).trans <|
      (StableHlo.after_of_writes_sub hostOps0 _ hostOps0_writes (by decide)).trans rfl
/-- Its bias row is the bias argument laid out as a one-row matrix. -/
theorem E4_v50 (c : Dev nD) :
    (E4 m c main_v50 : S1x2048.Idx → EReal) = fun j => (m ((c : Thread nD τ).loc main_arg10) : S2048.Idx → EReal) (ix1 (j 1)) := by
  have e : (E4 m c main_v50 : S1x2048.Idx → EReal)
      = shapeCast S1x2048 (B3 m c (Proc.devRef .tc main_arg10) : S2048.Idx → EReal) shapeCasts_S2048_S1x2048 := by
    show StableHlo.after hostOps2 _ (Proc.devRef .tc main_v50) = _
    after_results; rfl
  rw [e, B3_arg10]
  funext j
  exact (congrArg _ (eq_ix2 j)).trans (shapeCast_a_1a_apply _ _ (j 0) (j 1))

end Cert.KernelIdeal.ValP

end
-- ==== Proof.KernelValue.lean ====
/- The kernel's result array, at the ideal instance, as a function of the argument arrays: the last region's value
   over what the first two regions and the host operations hand it, rewritten stage by stage into `Cert.Val.kerE`. -/
import proofs.«409374_j40931038331448_3_alg».proof.Proof.KernelIdealRun
import proofs.«409374_j40931038331448_3_alg».proof.Proof.ValCombine0
import proofs.«409374_j40931038331448_3_alg».proof.Proof.ValCombine1
import proofs.«409374_j40931038331448_3_alg».proof.Proof.ValFused2
import proofs.«409374_j40931038331448_3_alg».proof.Proof.ValHost

noncomputable section

namespace Cert.KernelIdeal.ValP

open Cert.KernelIdeal Cert.KernelIdeal.Gen Cert.KernelIdeal.GenP Cert.Val
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The bias as the one-row matrix the kernel stages gives the same sum as the bias itself. -/
theorem applyE2_row (x : SX.Idx → EReal) (W : SW.Idx → EReal) (b : SD.Idx → EReal) :
    applyE2 x W (fun j => b (ix1 (j 1))) = applyE x W b := rfl

/-- The result array after the last region is the kernel's function of the arguments. -/
theorem out_eq (c : Dev nD) :
    ((dat2 (F := Ideal) (E4 m) c).arrAt 3 cfg2.N : S4096x2048.Idx → EReal)
      = kerE (m ((c : Thread nD τ).loc main_arg0))
          (m ((c : Thread nD τ).loc main_arg2)) (m ((c : Thread nD τ).loc main_arg1)) (m ((c : Thread nD τ).loc main_arg3))
          (m ((c : Thread nD τ).loc main_arg5)) (m ((c : Thread nD τ).loc main_arg4)) (m ((c : Thread nD τ).loc main_arg6))
          (m ((c : Thread nD τ).loc main_arg8)) (m ((c : Thread nD τ).loc main_arg7)) (m ((c : Thread nD τ).loc main_arg9))
          (m ((c : Thread nD τ).loc main_arg10)) := by
  rw [arrAt2_eq (E4 m) c, E4_arg0 m c, E4_v50 m c, E4_v49 m c, arrAt1_eq (E2 m) c, E2_v47 m c, E2_v48 m c, arrAt0_eq (E1 m) c,
    E1_v15 m c, E1_v31 m c, E1_v47 m c]
  exact applyE2_row _ _ _

/-- The kernel's run with its result named. -/
theorem kernel_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v51)
        = kerE (m ((c : Thread nD τ).loc main_arg0))
          (m ((c : Thread nD τ).loc main_arg2)) (m ((c : Thread nD τ).loc main_arg1)) (m ((c : Thread nD τ).loc main_arg3))
          (m ((c : Thread nD τ).loc main_arg5)) (m ((c : Thread nD τ).loc main_arg4)) (m ((c : Thread nD τ).loc main_arg6))
          (m ((c : Thread nD τ).loc main_arg8)) (m ((c : Thread nD τ).loc main_arg7)) (m ((c : Thread nD τ).loc main_arg9))
          (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun _ h c => ⟨(h c).1.trans (out_eq m c), (h c).2⟩) (run_value (F := Ideal) m ρ)

end Cert.KernelIdeal.ValP

end
-- ==== Proof.RefValue.lean ====
/- The reference's result as a function of the argument arrays, entry by entry: three gather-scale-scatter-add
   steps, then the bias along the rows. -/
import proofs.«409374_j40931038331448_3_alg».proof.Defs
import proofs.«409374_j40931038331448_3_alg».proof.Proof.Gen.ReferenceIdeal.Run
import proofs.«409374_j40931038331448_3_alg».proof.Proof.Gen.ReferenceIdeal.Read
import proofs.«409374_j40931038331448_3_alg».proof.Proof.ValueDefs
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen
open Idealize.ShloMosaic Idealize.ShloMosaic.TcCoe Idealize.ShloMosaic.ValueIdx Idealize.SL.Sem
open scoped BigOperators

/-- The gather's and the scatter's dimension numbers. -/
abbrev gD := gather_S4096x2048_S16384x1_S4096x16384_0_1_n_n_1_1_40961
abbrev sD := scatter_S4096x2048_S16384x1_S4096x16384_0_1_1_1

/-- A rank-1 index's coordinate is below the extent, written as the extent itself. -/
theorem idx1_lt {k : Nat} (n : (⟨1, ![k]⟩ : Shape).Idx) : (n 0).val < k := (n 0).isLt

/-- The gather at (b, n): the operand at row b and the column word n read signed, clamped into [0, 2047]. -/
theorem gather_at {α : Type} (R : S4096x2048.Idx → α) (idx : IVec S16384x1 32) (y : S4096x16384.Idx) :
    Host.gather gD R idx y
      = R (ix2 ⟨(y 0).val, idx2_lt0 y⟩ ⟨min (idx (ix2 ⟨(y 1).val, idx2_lt1 y⟩ 0)).toInt.toNat 2047, by omega⟩) := by
  unfold Host.gather
  congr 1
  funext a
  refine Fin.ext ?_
  have hsi : gD.siIdx y ⟨List.idxOf (1 : Fin 2) gD.startIndexMap,
      List.idxOf_lt_length_iff.2 (List.mem_singleton.mpr rfl)⟩ = ix2 ⟨(y 1).val, idx2_lt1 y⟩ 0 := by
    funext b; refine Fin.ext ?_
    match b with
    | ⟨0, _⟩ => rfl
    | ⟨1, _⟩ => rfl
  match a with
  | ⟨0, _⟩ =>
    show gD.start y idx 0 + gD.batchCoord y 0 + gD.offCoord y 0 = (y 0).val
    rw [GatherDims.batchCoord_eq_zero _ _ _ List.not_mem_nil]
    unfold GatherDims.start
    rw [dif_neg (by decide)]
    unfold GatherDims.offCoord
    rw [dif_pos (by decide)]
    simp only [Nat.add_zero, Nat.zero_add]
    rfl
  | ⟨1, _⟩ =>
    show gD.start y idx 1 + gD.batchCoord y 1 + gD.offCoord y 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gD.startIndexMap from List.mem_singleton.mpr rfl), hsi]
    rfl

theorem scatter_start0 (u : S4096x16384.Idx) (idx : IVec S16384x1 32) : sD.start u idx 0 = 0 := by
  unfold ScatterDims.start
  rw [dif_neg (by decide)]

theorem scatter_start1 (u : S4096x16384.Idx) (idx : IVec S16384x1 32) :
    sD.start u idx 1 = (idx (ix2 ⟨(u 1).val, idx2_lt1 u⟩ 0)).toInt := by
  unfold ScatterDims.start
  rw [dif_pos (show (1 : Fin 2) ∈ sD.scatterDimsToOperandDims from List.mem_singleton.mpr rfl)]
  congr 2
  funext b; refine Fin.ext ?_
  match b with
  | ⟨0, _⟩ => rfl
  | ⟨1, _⟩ => rfl

theorem scatter_window0 (u : S4096x16384.Idx) : sD.window u 0 = (u 0).val := by
  unfold ScatterDims.window
  rw [dif_pos (by decide)]
  rfl

theorem scatter_window1 (u : S4096x16384.Idx) : sD.window u 1 = 0 := by
  unfold ScatterDims.window
  rw [dif_neg (by decide)]

/-- A word lands at row r exactly when its wrap, read signed, is r. -/
theorem land_eq_some (w : BitVec 32) (r : Fin 2048) :
    Cert.Val.land w = some r ↔ (Cert.Val.wrapW w).toInt = (r.val : Int) := by
  unfold Cert.Val.land
  split
  · rename_i h
    rw [Option.some.injEq, Fin.ext_iff]
    simp only
    omega
  · rename_i h
    constructor
    · intro h'; exact absurd h' (by simp)
    · intro h'; exact absurd ⟨by omega, by have := r.isLt; omega⟩ h

/-- The update (b', n) lands on (b, r) exactly when b' = b and the row word n, read signed, is r. -/
theorem resultIdx_eq_some (idx : IVec S16384x1 32) (u : S4096x16384.Idx) (j : S4096x2048.Idx) :
    sD.resultIdx? u idx = some j
      ↔ (u 0).val = (j 0).val ∧ (idx (ix2 ⟨(u 1).val, idx2_lt1 u⟩ 0)).toInt = ((j 1).val : Int) := by
  have hu0 := idx2_lt0 u
  have hj0 := idx2_lt0 j
  have hj1 := idx2_lt1 j
  unfold ScatterDims.resultIdx?
  split
  · rename_i h
    rw [Option.some.injEq]
    constructor
    · intro hf
      have h0 := congrArg (fun f => (f 0).val) hf
      have h1 := congrArg (fun f => (f 1).val) hf
      simp only [scatter_start0, scatter_start1, scatter_window0, scatter_window1] at h0 h1
      have hb := (h 1)
      rw [scatter_start1, scatter_window1] at hb
      constructor
      · omega
      · omega
    · rintro ⟨h0, h1⟩
      funext a
      refine Fin.ext ?_
      match a with
      | ⟨0, _⟩ =>
        show (sD.start u idx 0 + (sD.window u 0 : Int)).toNat = (j 0).val
        rw [scatter_start0, scatter_window0]; omega
      | ⟨1, _⟩ =>
        show (sD.start u idx 1 + (sD.window u 1 : Int)).toNat = (j 1).val
        rw [scatter_start1, scatter_window1]; omega
  · rename_i h
    constructor
    · intro h'; exact absurd h' (by simp)
    · rintro ⟨h0, h1⟩
      refine absurd (fun a => ?_) h
      match a with
      | ⟨0, _⟩ =>
        show 0 ≤ sD.start u idx 0 + (sD.window u 0 : Int) ∧ sD.start u idx 0 + (sD.window u 0 : Int) < 4096
        rw [scatter_start0, scatter_window0]; omega
      | ⟨1, _⟩ =>
        show 0 ≤ sD.start u idx 1 + (sD.window u 1 : Int) ∧ sD.start u idx 1 + (sD.window u 1 : Int) < 2048
        rw [scatter_start1, scatter_window1]; omega

/-- ONE STEP: scatter-adding, into zeros and by the wrapped row words, the gather at the wrapped column words scaled
    by the values along the batch is the step on the entries. -/
theorem step_eq (Z : (⟨S4096x2048, .f32⟩ : BufTy).Contents (Elt Ideal)) (idxR idxC : (⟨S16384x1, .i32⟩ : BufTy).Contents (Elt Ideal))
    (V : (⟨S4096x16384, .f32⟩ : BufTy).Contents (Elt Ideal)) (R : (⟨S4096x2048, .f32⟩ : BufTy).Contents (Elt Ideal))
    (cols rows : (⟨S16384, .i32⟩ : BufTy).Contents (Elt Ideal)) (vals : (⟨S16384, .f32⟩ : BufTy).Contents (Elt Ideal))
    (hZ : ∀ j, Z j = (0 : EReal))
    (hR : ∀ n : Fin 16384, idxR (ix2 n 0) = Cert.Val.wrapW (rows (ix1 n)))
    (hC : ∀ n : Fin 16384, idxC (ix2 n 0) = Cert.Val.wrapW (cols (ix1 n)))
    (hV : ∀ (b : Fin 4096) (n : Fin 16384), V (ix2 b n) = vals (ix1 n)) :
    Host.scatterAdd (F := Ideal) (φ := .f32) sD Z idxR (mulf (F := Ideal) (φ := .f32) (Host.gather (α := Ideal .f32) gD R idxC) V)
      = Cert.Val.stepE cols rows vals R := by
  funext j
  unfold Host.scatterAdd
  rw [Ideal.hostScatterAdd_def]
  unfold Ideal.hostScatterAdd Cert.Val.stepE
  rw [hZ j]
  refine congrArg (fun t : EReal => 0 + t) ?_
  refine Finset.sum_nbij' (fun u => ix1 ⟨(u 1).val, idx2_lt1 u⟩)
    (fun n => ix2 ⟨(j 0).val, idx2_lt0 j⟩ ⟨(n 0).val, idx1_lt n⟩) ?_ ?_ ?_ ?_ ?_
  · intro u hu
    simp only [Finset.mem_filter, Finset.mem_univ, true_and] at hu ⊢
    have hu' := (resultIdx_eq_some idxR u j).1 hu
    exact (land_eq_some _ _).2 ((congrArg BitVec.toInt (hR ⟨(u 1).val, idx2_lt1 u⟩)).symm.trans hu'.2)
  · intro n hn
    simp only [Finset.mem_filter, Finset.mem_univ, true_and] at hn ⊢
    have hn' := (land_eq_some _ _).1 hn
    have en : ix1 ⟨(n 0).val, idx1_lt n⟩ = n := (eq_ix1 n).symm
    have hn'' : (Cert.Val.wrapW (rows (ix1 ⟨(n 0).val, idx1_lt n⟩))).toInt = ((j 1).val : Int) :=
      (congrArg (fun m => (Cert.Val.wrapW (rows m)).toInt) en).trans hn'
    exact (resultIdx_eq_some idxR _ j).2 ⟨rfl, (congrArg BitVec.toInt (hR ⟨(n 0).val, idx1_lt n⟩)).trans hn''⟩
  · intro u hu
    simp only [Finset.mem_filter, Finset.mem_univ, true_and] at hu
    have hu' := (resultIdx_eq_some idxR u j).1 hu
    funext a
    match a with
    | ⟨0, _⟩ => exact Fin.ext hu'.1.symm
    | ⟨1, _⟩ => rfl
  · intro n hn
    funext a
    match a with
    | ⟨0, _⟩ => rfl
  · intro u hu
    simp only [Finset.mem_filter, Finset.mem_univ, true_and] at hu
    have hu' := (resultIdx_eq_some idxR u j).1 hu
    show Host.gather gD R idxC u * V u = _
    rw [gather_at, (congrArg V (eq_ix2 u)).trans (hV ⟨(u 0).val, idx2_lt0 u⟩ ⟨(u 1).val, idx2_lt1 u⟩)]
    refine congrArg₂ (fun (p q : EReal) => p * q) (congrArg R ?_) rfl
    funext a
    refine Fin.ext ?_
    match a with
    | ⟨0, _⟩ => exact hu'.1
    | ⟨1, _⟩ =>
      show min (idxC (ix2 ⟨(u 1).val, idx2_lt1 u⟩ 0)).toInt.toNat 2047
        = min (Cert.Val.wrapW (cols (ix1 ⟨(u 1).val, idx2_lt1 u⟩))).toInt.toNat 2047
      rw [hC]

/-! The index words, the values and the zeros the three steps are given, read entry by entry. -/

theorem wrap_v5 (x : (⟨S16384, .i32⟩ : BufTy).Contents (Elt Ideal)) (n : Fin 16384) :
    Read.val_main_v5 (F := Ideal) x (ix2 n 0) = Cert.Val.wrapW (x (ix1 n)) := by
  have e : Read.idx_main_v5 (ix2 n 0) = ix1 n := by
    funext a; match a with | ⟨0, _⟩ => rfl
  rw [Read.val_main_v5_apply, Read.val_main_v4_apply, Read.val_main_v1_apply, Read.val_main_v3_apply,
    Read.val_main_v0_apply, Read.val_main_v2_apply, Read.val_main_c_apply, Read.val_main_c_0_apply, e]
  rfl

theorem wrap_v16 (x : (⟨S16384, .i32⟩ : BufTy).Contents (Elt Ideal)) (n : Fin 16384) :
    Read.val_main_v16 (F := Ideal) x (ix2 n 0) = Cert.Val.wrapW (x (ix1 n)) := by
  have e : Read.idx_main_v16 (ix2 n 0) = ix1 n := by
    funext a; match a with | ⟨0, _⟩ => rfl
  rw [Read.val_main_v16_apply, Read.val_main_v15_apply, Read.val_main_v12_apply, Read.val_main_v14_apply,
    Read.val_main_v11_apply, Read.val_main_v13_apply, Read.val_main_c_1_apply, Read.val_main_c_2_apply, e]
  rfl

theorem wrap_v23 (x : (⟨S16384, .i32⟩ : BufTy).Contents (Elt Ideal)) (n : Fin 16384) :
    Read.val_main_v23 (F := Ideal) x (ix2 n 0) = Cert.Val.wrapW (x (ix1 n)) := by
  have e : Read.idx_main_v23 (ix2 n 0) = ix1 n := by
    funext a; match a with | ⟨0, _⟩ => rfl
  rw [Read.val_main_v23_apply, Read.val_main_v22_apply, Read.val_main_v19_apply, Read.val_main_v21_apply,
    Read.val_main_v18_apply, Read.val_main_v20_apply, Read.val_main_c_3_apply, Read.val_main_c_4_apply, e]
  rfl

theorem wrap_v34 (x : (⟨S16384, .i32⟩ : BufTy).Contents (Elt Ideal)) (n : Fin 16384) :
    Read.val_main_v34 (F := Ideal) x (ix2 n 0) = Cert.Val.wrapW (x (ix1 n)) := by
  have e : Read.idx_main_v34 (ix2 n 0) = ix1 n := by
    funext a; match a with | ⟨0, _⟩ => rfl
  rw [Read.val_main_v34_apply, Read.val_main_v33_apply, Read.val_main_v30_apply, Read.val_main_v32_apply,
    Read.val_main_v29_apply, Read.val_main_v31_apply, Read.val_main_c_6_apply, Read.val_main_c_7_apply, e]
  rfl

theorem wrap_v41 (x : (⟨S16384, .i32⟩ : BufTy).Contents (Elt Ideal)) (n : Fin 16384) :
    Read.val_main_v41 (F := Ideal) x (ix2 n 0) = Cert.Val.wrapW (x (ix1 n)) := by
  have e : Read.idx_main_v41 (ix2 n 0) = ix1 n := by
    funext a; match a with | ⟨0, _⟩ => rfl
  rw [Read.val_main_v41_apply, Read.val_main_v40_apply, Read.val_main_v37_apply, Read.val_main_v39_apply,
    Read.val_main_v36_apply, Read.val_main_v38_apply, Read.val_main_c_8_apply, Read.val_main_c_9_apply, e]
  rfl

theorem wrap_v52 (x : (⟨S16384, .i32⟩ : BufTy).Contents (Elt Ideal)) (n : Fin 16384) :
    Read.val_main_v52 (F := Ideal) x (ix2 n 0) = Cert.Val.wrapW (x (ix1 n)) := by
  have e : Read.idx_main_v52 (ix2 n 0) = ix1 n := by
    funext a; match a with | ⟨0, _⟩ => rfl
  rw [Read.val_main_v52_apply, Read.val_main_v51_apply, Read.val_main_v48_apply, Read.val_main_v50_apply,
    Read.val_main_v47_apply, Read.val_main_v49_apply, Read.val_main_c_11_apply, Read.val_main_c_12_apply, e]
  rfl

theorem vals_v8 (x : (⟨S16384, .f32⟩ : BufTy).Contents (Elt Ideal)) (b : Fin 4096) (n : Fin 16384) :
    Read.val_main_v8 (F := Ideal) x (ix2 b n) = x (ix1 n) := by
  rw [Read.val_main_v8_apply, Read.val_main_v7_apply]
  congr 1
  funext a; match a with | ⟨0, _⟩ => rfl

theorem vals_v26 (x : (⟨S16384, .f32⟩ : BufTy).Contents (Elt Ideal)) (b : Fin 4096) (n : Fin 16384) :
    Read.val_main_v26 (F := Ideal) x (ix2 b n) = x (ix1 n) := by
  rw [Read.val_main_v26_apply, Read.val_main_v25_apply]
  congr 1
  funext a; match a with | ⟨0, _⟩ => rfl

theorem vals_v44 (x : (⟨S16384, .f32⟩ : BufTy).Contents (Elt Ideal)) (b : Fin 4096) (n : Fin 16384) :
    Read.val_main_v44 (F := Ideal) x (ix2 b n) = x (ix1 n) := by
  rw [Read.val_main_v44_apply, Read.val_main_v43_apply]
  congr 1
  funext a; match a with | ⟨0, _⟩ => rfl

theorem zero_v10 (j : S4096x2048.Idx) : Read.val_main_v10 (F := Ideal) j = (0 : EReal) := by
  rw [Read.val_main_v10_apply, Read.val_main_cst_apply]
  exact Ideal.ofBits_zero_f32

theorem zero_v28 (j : S4096x2048.Idx) : Read.val_main_v28 (F := Ideal) j = (0 : EReal) := by
  rw [Read.val_main_v28_apply, Read.val_main_cst_5_apply]
  exact Ideal.ofBits_zero_f32

theorem zero_v46 (j : S4096x2048.Idx) : Read.val_main_v46 (F := Ideal) j = (0 : EReal) := by
  rw [Read.val_main_v46_apply, Read.val_main_cst_10_apply]
  exact Ideal.ofBits_zero_f32

/-- The bias along the batch, read entry by entry. -/
theorem bias_v55 (x : (⟨S2048, .f32⟩ : BufTy).Contents (Elt Ideal)) (j : S4096x2048.Idx) :
    Read.val_main_v55 (F := Ideal) x j = x (ix1 (j 1)) := by
  rw [Read.val_main_v55_apply, Read.val_main_v54_apply]
  congr 1
  funext a; match a with | ⟨0, _⟩ => rfl

theorem step2 (x0 : (⟨S4096x2048, .f32⟩ : BufTy).Contents (Elt Ideal)) (x7 x8 : (⟨S16384, .i32⟩ : BufTy).Contents (Elt Ideal))
    (x9 : (⟨S16384, .f32⟩ : BufTy).Contents (Elt Ideal)) :
    Read.val_main_v17 (F := Ideal) x0 x7 x8 x9 = Cert.Val.stepE x8 x7 x9 x0 :=
  step_eq _ _ _ _ x0 x8 x7 x9 zero_v10 (wrap_v16 x7) (wrap_v5 x8) (vals_v8 x9)

theorem step1 (x0 : (⟨S4096x2048, .f32⟩ : BufTy).Contents (Elt Ideal)) (x4 x5 : (⟨S16384, .i32⟩ : BufTy).Contents (Elt Ideal))
    (x6 : (⟨S16384, .f32⟩ : BufTy).Contents (Elt Ideal)) (x7 x8 : (⟨S16384, .i32⟩ : BufTy).Contents (Elt Ideal))
    (x9 : (⟨S16384, .f32⟩ : BufTy).Contents (Elt Ideal)) :
    Read.val_main_v35 (F := Ideal) x0 x4 x5 x6 x7 x8 x9 = Cert.Val.stepE x5 x4 x6 (Cert.Val.stepE x8 x7 x9 x0) := by
  have h : Read.val_main_v35 (F := Ideal) x0 x4 x5 x6 x7 x8 x9
      = Cert.Val.stepE x5 x4 x6 (Read.val_main_v17 (F := Ideal) x0 x7 x8 x9) :=
    step_eq (Read.val_main_v28 (F := Ideal)) (Read.val_main_v34 (F := Ideal) x4) (Read.val_main_v23 (F := Ideal) x5)
      (Read.val_main_v26 (F := Ideal) x6) (Read.val_main_v17 (F := Ideal) x0 x7 x8 x9) x5 x4 x6
      zero_v28 (wrap_v34 x4) (wrap_v23 x5) (vals_v26 x6)
  rw [h, step2]

theorem step0 (x0 : (⟨S4096x2048, .f32⟩ : BufTy).Contents (Elt Ideal)) (x1 x2 : (⟨S16384, .i32⟩ : BufTy).Contents (Elt Ideal))
    (x3 : (⟨S16384, .f32⟩ : BufTy).Contents (Elt Ideal)) (x4 x5 : (⟨S16384, .i32⟩ : BufTy).Contents (Elt Ideal))
    (x6 : (⟨S16384, .f32⟩ : BufTy).Contents (Elt Ideal)) (x7 x8 : (⟨S16384, .i32⟩ : BufTy).Contents (Elt Ideal))
    (x9 : (⟨S16384, .f32⟩ : BufTy).Contents (Elt Ideal)) :
    Read.val_main_v53 (F := Ideal) x0 x1 x2 x3 x4 x5 x6 x7 x8 x9
      = Cert.Val.stepE x2 x1 x3 (Cert.Val.stepE x5 x4 x6 (Cert.Val.stepE x8 x7 x9 x0)) := by
  have h : Read.val_main_v53 (F := Ideal) x0 x1 x2 x3 x4 x5 x6 x7 x8 x9
      = Cert.Val.stepE x2 x1 x3 (Read.val_main_v35 (F := Ideal) x0 x4 x5 x6 x7 x8 x9) :=
    step_eq (Read.val_main_v46 (F := Ideal)) (Read.val_main_v52 (F := Ideal) x1) (Read.val_main_v41 (F := Ideal) x2)
      (Read.val_main_v44 (F := Ideal) x3) (Read.val_main_v35 (F := Ideal) x0 x4 x5 x6 x7 x8 x9) x2 x1 x3
      zero_v46 (wrap_v52 x1) (wrap_v41 x2) (vals_v44 x3)
  rw [h, step1]

/-- The reference's result term, at the ideal instance, is three gather-scale-scatter-add steps and the bias
    (argument order of @main: rows0 = x1, cols0 = x2, vals0 = x3, rows1 = x4, cols1 = x5, vals1 = x6, rows2 = x7, cols2 = x8,
    vals2 = x9, bias = x10). -/
theorem ref_eq (x0 : (⟨S4096x2048, .f32⟩ : BufTy).Contents (Elt Ideal)) (x1 x2 : (⟨S16384, .i32⟩ : BufTy).Contents (Elt Ideal)) (x3 : (⟨S16384, .f32⟩ : BufTy).Contents (Elt Ideal))
    (x4 x5 : (⟨S16384, .i32⟩ : BufTy).Contents (Elt Ideal)) (x6 : (⟨S16384, .f32⟩ : BufTy).Contents (Elt Ideal))
    (x7 x8 : (⟨S16384, .i32⟩ : BufTy).Contents (Elt Ideal)) (x9 : (⟨S16384, .f32⟩ : BufTy).Contents (Elt Ideal)) (x10 : (⟨S2048, .f32⟩ : BufTy).Contents (Elt Ideal)) :
    Cert.ReferenceIdeal.Read.val_main_v56 (F := Ideal) x0 x1 x2 x3 x4 x5 x6 x7 x8 x9 x10
      = Cert.Val.refE x0 x2 x1 x3 x5 x4 x6 x8 x7 x9 x10 := by
  funext j
  rw [Read.val_main_v56_apply, step0, bias_v55]
  rfl

end Cert.ReferenceIdeal.RefValue

end
-- ==== Proof.PreFacts.lean ====
/- What the precondition says of the argument arrays, entry by entry: every float input is a real number, and
   every column index lies in `[0, 2048)`, so that it is scattered and gathered at the same place. -/
import proofs.«409374_j40931038331448_3_alg».proof.Pre_finite_inputs
import proofs.«409374_j40931038331448_3_alg».proof.Proof.Gen.Pre_finite_inputs
import proofs.«409374_j40931038331448_3_alg».proof.Proof.ValueDefs
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx Cert.Pre_finite_inputs Cert.Val

/-- The result of a full reduction has one index. -/
instance : Subsingleton S_.Idx := ⟨fun _ _ => funext fun d => d.elim0⟩

/-- The pattern `0x7F800000` is `+∞`. -/
theorem inf_pattern : Ideal.ofBits .f32 0x7F800000#32 = ⊤ := by simp [Ideal.ofBits, Ideal.ieee]

/-- An extended real whose absolute value is below `+∞` is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [inf_pattern] at h
  induction x using EReal.rec with
  | bot => simp [Ideal.cmp] at h
  | coe r => exact ⟨r, rfl⟩
  | top => simp [Ideal.cmp] at h

/-- A truth value as a one-bit word is 1 exactly when it is true. -/
theorem ofBool_one (b : Bool) : BitVec.ofBool b = 1#1 ↔ b = true := by cases b <;> decide

/-- A column index in `[0, 2048)` is scattered where it is gathered. -/
theorem land_of_range (w : BitVec 32) (h0 : IntOp.cmpi .sge w 0#32 = 1#1) (h1 : IntOp.cmpi .slt w 2048#32 = 1#1) :
    land w = some (clampG w) := by
  have z0 : (0#32 : BitVec 32).toInt = 0 := by decide
  have z1 : (2048#32 : BitVec 32).toInt = 2048 := by decide
  have g0 : 0 ≤ w.toInt := by simpa [IntOp.cmpi, BitVec.sle, z0, ofBool_one] using h0
  have g1 : w.toInt < 2048 := by simpa [IntOp.cmpi, BitVec.slt, z1, ofBool_one] using h1
  have hw : wrapW w = w := by
    have hn : IntOp.cmpi .slt w 0#32 ≠ 1 := by
      intro hc
      have : w.toInt < 0 := by simpa [IntOp.cmpi, BitVec.slt, z0, ofBool_one] using hc
      omega
    unfold wrapW Scalar.select
    rw [if_neg hn]
  unfold land clampG
  simp only [hw]
  rw [dif_pos ⟨g0, g1⟩]
  congr 1
  apply Fin.ext
  show w.toInt.toNat = min w.toInt.toNat 2047
  omega

/-- The precondition, decoded. -/
theorem decode (a0 : FVec Ideal S4096x2048 .f32) (a1 a2 : IVec S16384 32) (a3 : FVec Ideal S16384 .f32) (a4 a5 : IVec S16384 32)
    (a6 : FVec Ideal S16384 .f32) (a7 a8 : IVec S16384 32) (a9 : FVec Ideal S16384 .f32) (a10 : FVec Ideal S2048 .f32)
    (h : Cert.Pre_finite_inputs.fn (F := Ideal) a0 a1 a2 a3 a4 a5 a6 a7 a8 a9 a10 = fun _ => 1#1) :
    (∀ i, ∃ r : ℝ, a0 i = (r : EReal)) ∧ (∀ i, ∃ r : ℝ, a3 i = (r : EReal)) ∧ (∀ i, ∃ r : ℝ, a6 i = (r : EReal))
      ∧ (∀ i, ∃ r : ℝ, a9 i = (r : EReal)) ∧ (∀ i, ∃ r : ℝ, a10 i = (r : EReal))
      ∧ (∀ n, land (a2 n) = some (clampG (a2 n))) ∧ (∀ n, land (a5 n) = some (clampG (a5 n))) ∧ (∀ n, land (a8 n) = some (clampG (a8 n))) := by
  have e := congrFun h ix0
  dsimp only [fn, fn_part1, fn_part2] at e
  -- the outer chain of conjunctions, at the one result index
  obtain ⟨e, e43⟩ := IntOp.andi_eq_one.1 e
  obtain ⟨e, e36⟩ := IntOp.andi_eq_one.1 e
  obtain ⟨e, e29⟩ := IntOp.andi_eq_one.1 e
  obtain ⟨e, e22⟩ := IntOp.andi_eq_one.1 e
  obtain ⟨e, e17⟩ := IntOp.andi_eq_one.1 e
  obtain ⟨e, e12⟩ := IntOp.andi_eq_one.1 e
  obtain ⟨e3, e7⟩ := IntOp.andi_eq_one.1 e
  -- a column index array whose range test is all ones
  have idx : ∀ (a : IVec S16384 32) (n : S16384.Idx),
      IntOp.andi (IntOp.cmpi .sge (a n) 0#32) (IntOp.cmpi .slt (a n) 2048#32) = 1#1 → land (a n) = some (clampG (a n)) :=
    fun a n t => land_of_range (a n) (IntOp.andi_eq_one.1 t).1 (IntOp.andi_eq_one.1 t).2
  refine ⟨fun i => real_of_abs_lt_inf (a0 i) (Host.reduce_andi_all _ _ _ _ ix0 e3 i),
    fun i => real_of_abs_lt_inf (a3 i) (Host.reduce_andi_all _ _ _ _ ix0 e7 i),
    fun i => real_of_abs_lt_inf (a6 i) (Host.reduce_andi_all _ _ _ _ ix0 e12 i),
    fun i => real_of_abs_lt_inf (a9 i) (Host.reduce_andi_all _ _ _ _ ix0 e17 i),
    fun i => real_of_abs_lt_inf (a10 i) (Host.reduce_andi_all _ _ _ _ ix0 e22 i),
    fun n => idx a2 n (Host.reduce_andi_all _ _ _ _ ix0 e29 n),
    fun n => idx a5 n (Host.reduce_andi_all _ _ _ _ ix0 e36 n),
    fun n => idx a8 n (Host.reduce_andi_all _ _ _ _ ix0 e43 n)⟩

end Cert.PreFacts

end
-- ==== Proof.Spec.lean ====
/- The mathematics shared by the two programs, over the real numbers.

   A sparse matrix is given by its nonzeros: entry `n` carries a value `v n`, a column and a row. Its dense
   transpose `dense col row v` has at `(c, r)` the sum of the values whose column lands on `c` and whose row lands
   on `r` (an entry landing outside the matrix is dropped). One step of the reference gathers, for every nonzero,
   the column `g n` of the running result, scales it by the value and adds it into the row the nonzero names
   (`step`). When every column lands inside the matrix, that step IS the product of the running result with the
   dense transpose (`step_eq_mm`), so three steps are a product with three matrices, which may be reassociated
   (`mm_assoc`): the reference's chain of steps equals the product of the input with the three dense transposes
   multiplied together first (`chain_eq`). Sums and products of real numbers read in the extended reals are the real
   sums and products (`coe_sum`, `coe_mm`). -/
import Mathlib.Data.EReal.Basic
import Mathlib.Data.EReal.Operations
import Mathlib.Algebra.BigOperators.Group.Finset.Basic
import Mathlib.Algebra.BigOperators.Ring.Finset
import Mathlib.Algebra.BigOperators.Group.Finset.Sigma
import Mathlib.Tactic.Ring

noncomputable section

namespace Cert.Spec

open scoped BigOperators

/-- A finite sum of real numbers, read in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

variable {B D N : Type} [Fintype B] [Fintype D] [Fintype N] [DecidableEq D]

/-- The dense transpose of a sparse matrix: at `(c, r)` the sum of the values of the nonzeros whose column lands on
    `c` and whose row lands on `r`. -/
def dense (col row : N → Option D) (v : N → ℝ) (c r : D) : ℝ :=
  ∑ n ∈ Finset.univ.filter (fun n => col n = some c ∧ row n = some r), v n

/-- One step of the reference: every nonzero adds its value times column `g n` of `R` into the row it names. -/
def step (g : N → D) (row : N → Option D) (v : N → ℝ) (R : B → D → ℝ) (b : B) (r : D) : ℝ :=
  ∑ n ∈ Finset.univ.filter (fun n => row n = some r), R b (g n) * v n

/-- The matrix product. -/
def mm {I J K : Type} [Fintype J] (A : I → J → ℝ) (M : J → K → ℝ) (i : I) (k : K) : ℝ := ∑ j, A i j * M j k

theorem mm_assoc {I J K L : Type} [Fintype J] [Fintype K] (A : I → J → ℝ) (M : J → K → ℝ) (P : K → L → ℝ) :
    mm (mm A M) P = mm A (mm M P) := by
  funext i l
  simp only [mm, Finset.sum_mul, Finset.mul_sum]
  rw [Finset.sum_comm]
  refine Finset.sum_congr rfl fun j _ => Finset.sum_congr rfl fun k _ => ?_
  ring

/-- With every column inside the matrix, a step is the product with the dense transpose. -/
theorem step_eq_mm (g : N → D) (col row : N → Option D) (v : N → ℝ) (R : B → D → ℝ)
    (hcol : ∀ n, col n = some (g n)) : step g row v R = mm R (dense col row v) := by
  classical
  funext b r
  simp only [step, mm, dense, Finset.mul_sum]
  symm
  rw [Finset.sum_comm' (t' := Finset.univ.filter (fun n => row n = some r)) (s' := fun n => {g n})]
  · refine Finset.sum_congr rfl fun n _ => ?_
    rw [Finset.sum_singleton]
  · intro c n
    simp only [Finset.mem_univ, Finset.mem_filter, true_and, Finset.mem_singleton, hcol, Option.some.injEq]
    constructor
    · rintro ⟨h1, h2⟩; exact ⟨h1.symm, h2⟩
    · rintro ⟨h1, h2⟩; exact ⟨h1.symm, h2⟩

/-- Three steps, then the bias, are the product of the input with the three dense transposes multiplied first,
    then the bias. -/
theorem chain_eq (g0 g1 g2 : N → D) (col0 col1 col2 row0 row1 row2 : N → Option D) (v0 v1 v2 : N → ℝ)
    (x : B → D → ℝ) (bias : D → ℝ)
    (h0 : ∀ n, col0 n = some (g0 n)) (h1 : ∀ n, col1 n = some (g1 n)) (h2 : ∀ n, col2 n = some (g2 n)) :
    (fun b r => step g0 row0 v0 (step g1 row1 v1 (step g2 row2 v2 x)) b r + bias r)
      = fun b r => mm x (mm (mm (dense col2 row2 v2) (dense col1 row1 v1)) (dense col0 row0 v0)) b r + bias r := by
  rw [step_eq_mm g2 col2 row2 v2 x h2, step_eq_mm g1 col1 row1 v1 _ h1, step_eq_mm g0 col0 row0 v0 _ h0,
    mm_assoc, mm_assoc, ← mm_assoc (dense col2 row2 v2)]

/-- A product of real matrices, read entry by entry in the extended reals. -/
theorem coe_mm {I J K : Type} [Fintype J] (A : I → J → ℝ) (M : J → K → ℝ) (i : I) (k : K) :
    ∑ j, ((A i j : ℝ) : EReal) * ((M j k : ℝ) : EReal) = ((mm A M i k : ℝ) : EReal) := by
  simp only [mm, ← EReal.coe_mul, coe_sum]

end Cert.Spec

end
-- ==== Proof.Bridge.lean ====
/- The kernel's and the reference's results are one function of the argument arrays, when every float entry is a
   real number and every column index lands where it is gathered: both are then the real-number formulas of
   `Cert.Spec` read in the extended reals, and those agree by the reassociation of a product of three matrices. -/
import proofs.«409374_j40931038331448_3_alg».proof.Proof.Spec
import proofs.«409374_j40931038331448_3_alg».proof.Proof.ValueDefs

noncomputable section

namespace Cert.Bridge

open Idealize.ShloMosaic Idealize.ShloMosaic.ValueIdx Cert.Val Cert.Spec
open scoped BigOperators

/-- A real matrix read as an array of extended reals. -/
def up2 {a b : Nat} (A : Fin a → Fin b → ℝ) : (⟨2, ![a, b]⟩ : Shape).Idx → EReal := fun j => ((A (j 0) (j 1) : ℝ) : EReal)

theorem denseE_up (c r : SN.Idx → BitVec 32) (v : SN.Idx → ℝ) :
    denseE c r (fun n => ((v n : ℝ) : EReal)) = up2 (dense (fun n => land (c n)) (fun n => land (r n)) v) := by
  classical
  funext j
  unfold denseE up2 dense
  refine (zero_add _).trans ((coe_sum _ v).trans (congrArg _ (Finset.sum_congr ?_ fun _ _ => rfl)))
  ext n
  rw [Finset.mem_filter, Finset.mem_filter]
  exact Iff.rfl

theorem mmE_up (A M : Fin 2048 → Fin 2048 → ℝ) : mmE (up2 A) (up2 M) = up2 (mm A M) := by
  funext j
  unfold mmE up2
  exact coe_mm A M (j 0) (j 1)

theorem stepE_up (c r : SN.Idx → BitVec 32) (v : SN.Idx → ℝ) (R : Fin 4096 → Fin 2048 → ℝ) :
    stepE c r (fun n => ((v n : ℝ) : EReal)) (up2 R) = up2 (step (fun n => clampG (c n)) (fun n => land (r n)) v R) := by
  classical
  funext j
  unfold stepE up2 step
  refine (zero_add _).trans ?_
  refine (Finset.sum_congr rfl fun n _ => (EReal.coe_mul (R (j 0) (clampG (c n))) (v n)).symm).trans ?_
  refine (coe_sum _ (fun n => R (j 0) (clampG (c n)) * v n)).trans (congrArg _ (Finset.sum_congr ?_ fun _ _ => rfl))
  ext n
  rw [Finset.mem_filter, Finset.mem_filter]
  exact Iff.rfl

theorem applyE_up (X : Fin 4096 → Fin 2048 → ℝ) (W : Fin 2048 → Fin 2048 → ℝ) (b : SD.Idx → ℝ) :
    applyE (up2 X) (up2 W) (fun i => ((b i : ℝ) : EReal)) = fun j => ((mm X W (j 0) (j 1) + b (ix1 (j 1)) : ℝ) : EReal) := by
  funext j
  unfold applyE up2
  exact (congrArg (· + ((b (ix1 (j 1)) : ℝ) : EReal)) (coe_mm X W (j 0) (j 1))).trans (EReal.coe_add _ _).symm

/-- A real-valued array of extended reals is a real matrix read in the extended reals. -/
theorem exists_up2 {a b : Nat} (x : (⟨2, ![a, b]⟩ : Shape).Idx → EReal) (h : ∀ i, ∃ r : ℝ, x i = (r : EReal)) :
    ∃ A : Fin a → Fin b → ℝ, x = up2 A := by
  choose f hf using h
  refine ⟨fun p q => f (ix2 p q), funext fun j => ?_⟩
  rw [hf j, up2]
  congr 3
  exact eq_ix2 j

theorem exists_up1 {a : Nat} (x : (⟨1, ![a]⟩ : Shape).Idx → EReal) (h : ∀ i, ∃ r : ℝ, x i = (r : EReal)) :
    ∃ f : (⟨1, ![a]⟩ : Shape).Idx → ℝ, x = fun i => ((f i : ℝ) : EReal) := by
  choose f hf using h
  exact ⟨f, funext hf⟩

/-- THE BRIDGE. -/
theorem kerE_eq_refE (x : SX.Idx → EReal) (c0 r0 : SN.Idx → BitVec 32) (v0 : SN.Idx → EReal) (c1 r1 : SN.Idx → BitVec 32) (v1 : SN.Idx → EReal)
    (c2 r2 : SN.Idx → BitVec 32) (v2 : SN.Idx → EReal) (bias : SD.Idx → EReal)
    (hx : ∀ i, ∃ r : ℝ, x i = (r : EReal)) (hv0 : ∀ i, ∃ r : ℝ, v0 i = (r : EReal)) (hv1 : ∀ i, ∃ r : ℝ, v1 i = (r : EReal))
    (hv2 : ∀ i, ∃ r : ℝ, v2 i = (r : EReal)) (hb : ∀ i, ∃ r : ℝ, bias i = (r : EReal))
    (hc0 : ∀ n, land (c0 n) = some (clampG (c0 n))) (hc1 : ∀ n, land (c1 n) = some (clampG (c1 n)))
    (hc2 : ∀ n, land (c2 n) = some (clampG (c2 n))) :
    kerE x c0 r0 v0 c1 r1 v1 c2 r2 v2 bias = refE x c0 r0 v0 c1 r1 v1 c2 r2 v2 bias := by
  obtain ⟨X, rfl⟩ := exists_up2 x hx
  obtain ⟨w0, rfl⟩ := exists_up1 v0 hv0
  obtain ⟨w1, rfl⟩ := exists_up1 v1 hv1
  obtain ⟨w2, rfl⟩ := exists_up1 v2 hv2
  obtain ⟨b, rfl⟩ := exists_up1 bias hb
  unfold kerE refE
  rw [denseE_up, denseE_up, denseE_up, mmE_up, mmE_up, applyE_up, stepE_up, stepE_up, stepE_up]
  funext j
  have h := congrFun (congrFun (chain_eq (B := Fin 4096) (fun n => clampG (c0 n)) (fun n => clampG (c1 n)) (fun n => clampG (c2 n))
    (fun n => land (c0 n)) (fun n => land (c1 n)) (fun n => land (c2 n)) (fun n => land (r0 n)) (fun n => land (r1 n)) (fun n => land (r2 n))
    w0 w1 w2 X (fun q : Fin 2048 => b (ix1 q)) hc0 hc1 hc2) (j 0)) (j 1)
  unfold up2
  exact (congrArg (fun r : ℝ => (r : EReal)) h.symm).trans (EReal.coe_add _ _)

end Cert.Bridge

end
-- ==== Proof.lean ====
/- The certificate: a chain of three sparse matrix products applied to a batch of rows, plus a bias.

   The reference applies the three sparse matrices one after the other (for each nonzero: gather a column of the
   running result, scale it by the value, add it into the row the nonzero names). The kernel first densifies the
   transpose of each sparse matrix by a scatter-add into zeros, multiplies the three dense matrices together on the
   matrix unit (two products, each accumulated over four steps of the contraction axis in a scratch), and applies the
   result to the input in one more product, adding the bias row. At the ideal instance a change of float format is the
   identity, so the kernel computes x · ((T₂ · T₁) · T₀) + b and the reference ((x · T₂) · T₁) · T₀ + b: equal by the
   associativity of the matrix product over the real numbers. Two hypotheses are used. Every float input is finite, so
   that all entries are real numbers and sums and products may be regrouped. Every column index lies in [0, 2048): the
   reference reads an out-of-range column by clamping it while a scatter drops an out-of-range entry, so outside that
   range the two programs differ; inside it a column is scattered exactly where it is gathered. Row indices need no
   hypothesis: an out-of-range row is dropped on both sides.

   The frames: each kernel region's body is run case by case (first, middle and last step of the contraction axis for
   the two weight products; a single path for the last region), the accumulator's contents carried in the region
   invariant, and @main is run as its five segments. -/
import proofs.«409374_j40931038331448_3_alg».proof.Defs
import proofs.«409374_j40931038331448_3_alg».proof.Proof.Gen.Kernel
import proofs.«409374_j40931038331448_3_alg».proof.Proof.Gen.KernelIdeal
import proofs.«409374_j40931038331448_3_alg».proof.Proof.Gen.ReferenceIdeal
import proofs.«409374_j40931038331448_3_alg».proof.Proof.Gen.Pre_finite_inputs
import proofs.«409374_j40931038331448_3_alg».proof.Proof.Gen.ReferenceIdeal.Run
import proofs.«409374_j40931038331448_3_alg».proof.Proof.Gen.ReferenceIdeal.Read
import proofs.«409374_j40931038331448_3_alg».proof.Proof.KernelRun
import proofs.«409374_j40931038331448_3_alg».proof.Proof.KernelIdealRun
import proofs.«409374_j40931038331448_3_alg».proof.Proof.KernelValue
import proofs.«409374_j40931038331448_3_alg».proof.Proof.RefValue
import proofs.«409374_j40931038331448_3_alg».proof.Proof.PreFacts
import proofs.«409374_j40931038331448_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text. -/
theorem preserves : Cert.preserves_Kernel_KernelIdeal := trivial

/-- Both programs end with the same result array: the kernel's run names it as the product with the three dense
    transposes multiplied first, the reference's run as three steps; under the precondition these agree. -/
theorem algebraic : Cert.algebraic_KernelIdeal_ReferenceIdeal := by
  intro m ρ m' ρ' hpre hagree
  refine ⟨_, Cert.KernelIdeal.ValP.kernel_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h3, h6, h9, h10, hc0, hc1, hc2⟩ := Cert.PreFacts.decode _ _ _ _ _ _ _ _ _ _ _ (hpre c)
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  exact ((Cert.ReferenceIdeal.Read.val_main_v56_eq (F := Ideal) _ _ _ _ _ _ _ _ _ _ _).trans
    (Cert.ReferenceIdeal.RefValue.ref_eq _ _ _ _ _ _ _ _ _ _ _)).trans
    (Cert.Bridge.kerE_eq_refE _ _ _ _ _ _ _ _ _ _ _ h0 h3 h6 h9 h10 hc0 hc1 hc2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
